-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x96 : Shape := ⟨2, ![800000, 96]⟩
abbrev S64x64 : Shape := ⟨2, ![64, 64]⟩
abbrev S50000 : Shape := ⟨1, ![50000]⟩
abbrev S288x256 : Shape := ⟨2, ![288, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S64x64 : S_.BroadcastsInDim S64x64 (![] : Fin 0 → Fin S64x64.rank)
  reducesTo_S64x64_S_d0_1 : S64x64.ReducesTo [0, 1] S_
  bcast_S_S288x256 : S_.BroadcastsInDim S288x256 (![] : Fin 0 → Fin S288x256.rank)
  reducesTo_S288x256_S_d0_1 : S288x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S256 .f32) (main_arg7 : FVec F S256 .f32) (main_arg8 : FVec F S256 .f32) (main_arg9 : FVec F S256x128 .f32) (main_arg10 : FVec F S128 .f32) (main_v13 : IVec S_ 1) (main_v16 : IVec S288x256 1) : IVec S_ 1 :=
  let main_c_5 : IVec S_ 1 := constantI S_ 1 1#1
  let main_v17 : IVec S_ 1 := (fun x v => Host.reduce IntOp.andi x v reducesTo_S288x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : FVec F S800000x96 .f32) (main_arg3 : FVec F S64x64 .f32) (main_arg4 : IVec S50000 32) (main_arg5 : FVec F S288x256 .f32) (main_arg6 : FVec F S256 .f32) (main_arg7 : FVec F S256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x96 .f32 := Host.absf main_arg2
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S288x256 .f32 := Host.absf main_arg5
  let main_cst_4 : FVec F S_ .f32 := constant S_ .f32 0x7F800000#32
  let main_v15 : FVec F S288x256 .f32 := broadcastInDim S288x256 ![] bcast_S_S288x256 main_cst_4
  let main_v16 : IVec S288x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x96 : Shape := ⟨2, ![800000, 96]⟩
abbrev S64x64 : Shape := ⟨2, ![64, 64]⟩
abbrev S50000 : Shape := ⟨1, ![50000]⟩
abbrev S288x256 : Shape := ⟨2, ![288, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x96 : Shape := ⟨2, ![50000, 96]⟩
abbrev S800000x1 : Shape := ⟨2, ![800000, 1]⟩
abbrev S50000x1 : Shape := ⟨2, ![50000, 1]⟩
abbrev S50000x64 : Shape := ⟨2, ![50000, 64]⟩
abbrev S128x256 : Shape := ⟨2, ![128, 256]⟩
abbrev S96x256 : Shape := ⟨2, ![96, 256]⟩
abbrev S64x256 : Shape := ⟨2, ![64, 256]⟩
abbrev S1x256 : Shape := ⟨2, ![1, 256]⟩
abbrev S50000x256 : Shape := ⟨2, ![50000, 256]⟩
abbrev S1000x128 : Shape := ⟨2, ![1000, 128]⟩
abbrev S1000x96 : Shape := ⟨2, ![1000, 96]⟩
abbrev S1000x64 : Shape := ⟨2, ![1000, 64]⟩
abbrev S1000x256 : Shape := ⟨2, ![1000, 256]⟩
abbrev S1x128 : Shape := ⟨2, ![1, 128]⟩

abbrev nBuf : Space → Nat
  | .hbm => 60
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x96, .f32⟩
  | .hbm, ⟨3, _⟩ => ⟨S64x64, .f32⟩
  | .hbm, ⟨4, _⟩ => ⟨S50000, .i32⟩
  | .hbm, ⟨5, _⟩ => ⟨S288x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000x96, .f32⟩
  | .hbm, ⟨15, _⟩ => ⟨S800000x1, .i32⟩
  | .hbm, ⟨16, _⟩ => ⟨S50000x96, .f32⟩
  | .hbm, ⟨17, _⟩ => ⟨S_, .f32⟩
  | .hbm, ⟨18, _⟩ => ⟨S800000x1, .f32⟩
  | .hbm, ⟨19, _⟩ => ⟨S_, .f32⟩
  | .hbm, ⟨20, _⟩ => ⟨S50000x1, .f32⟩
  | .hbm, ⟨21, _⟩ => ⟨S800000x1, .i32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S50000x96, .f32⟩
  | .hbm, ⟨27, _⟩ => ⟨S50000x96, .f32⟩
  | .hbm, ⟨28, _⟩ => ⟨S_, .i32⟩
  | .hbm, ⟨29, _⟩ => ⟨S50000, .i32⟩
  | .hbm, ⟨30, _⟩ => ⟨S50000, .i1⟩
  | .hbm, ⟨31, _⟩ => ⟨S_, .i32⟩
  | .hbm, ⟨32, _⟩ => ⟨S50000, .i32⟩
  | .hbm, ⟨33, _⟩ => ⟨S50000, .i32⟩
  | .hbm, ⟨34, _⟩ => ⟨S50000, .i32⟩
  | .hbm, ⟨35, _⟩ => ⟨S50000x1, .i32⟩
  | .hbm, ⟨36, _⟩ => ⟨S50000x64, .f32⟩
  | .hbm, ⟨37, _⟩ => ⟨S128x256, .f32⟩
  | .hbm, ⟨38, _⟩ => ⟨S96x256, .f32⟩
  | .hbm, ⟨39, _⟩ => ⟨S64x256, .f32⟩
  | .hbm, ⟨40, _⟩ => ⟨S1x256, .f32⟩
  | .hbm, ⟨41, _⟩ => ⟨S50000x256, .f32⟩
  | .hbm, ⟨42, _⟩ => ⟨S1x256, .f32⟩
  | .hbm, ⟨43, _⟩ => ⟨S1x256, .f32⟩
  | .hbm, ⟨44, _⟩ => ⟨S_, .f32⟩
  | .hbm, ⟨45, _⟩ => ⟨S1x256, .f32⟩
  | .hbm, ⟨46, _⟩ => ⟨S1x256, .f32⟩
  | .hbm, ⟨47, _⟩ => ⟨S256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x128, .f32⟩
  | .hbm, ⟨59, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x96, .f32⟩
  | .local _ .vmem, ⟨3, _⟩ => ⟨S1000x96, .f32⟩
  | .local _ .vmem, ⟨4, _⟩ => ⟨S1000x64, .f32⟩
  | .local _ .vmem, ⟨5, _⟩ => ⟨S1000x64, .f32⟩
  | .local _ .vmem, ⟨6, _⟩ => ⟨S128x256, .f32⟩
  | .local _ .vmem, ⟨7, _⟩ => ⟨S96x256, .f32⟩
  | .local _ .vmem, ⟨8, _⟩ => ⟨S64x256, .f32⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | .local _ .vmem, ⟨12, _⟩ => ⟨S1x256, .f32⟩
  | .local _ .vmem, ⟨13, _⟩ => ⟨S1x256, .f32⟩
  | .local _ .vmem, ⟨14, _⟩ => ⟨S1000x256, .f32⟩
  | .local _ .vmem, ⟨15, _⟩ => ⟨S1000x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S1000x128, .f32⟩
  | .local _ .vmem, ⟨23, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v24_2 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_1_0 : S2x800000.Slices ![1, 0] S1x800000
  shapeCasts_S1x800000_S800000 : S1x800000.ShapeCasts S800000
  bcast_S_S50000x96 : S_.BroadcastsInDim S50000x96 (![] : Fin 0 → Fin S50000x96.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  slices_S288x256_S128x256_0_0 : S288x256.Slices ![0, 0] S128x256
  slices_S288x256_S96x256_128_0 : S288x256.Slices ![128, 0] S96x256
  slices_S288x256_S64x256_224_0 : S288x256.Slices ![224, 0] S64x256
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1000x96_S1000x96_0_0 : ∀ a, (![0, 0] : Fin 2 → Nat) a + S1000x96.size a ≤ S1000x96.size a
  h_S1000x96 : 0 < S1000x96.numel
  shapeCasts_S1000x96_S1000x96 : S1000x96.ShapeCasts S1000x96
  inb_S96x256_S96x256_0_0 : ∀ a, (![0, 0] : Fin 2 → Nat) a + S96x256.size a ≤ S96x256.size a
  h_S96x256 : 0 < S96x256.numel
  shapeCasts_S96x256_S96x256 : S96x256.ShapeCasts S96x256
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  reduces_S1000x256_S256 : S1000x256.Reduces [0] S256
  bcast_S_S1x256 : S_.BroadcastsInDim S1x256 (![] : Fin 0 → Fin S1x256.rank)
  shapeCasts_S1x256_S256 : S1x256.ShapeCasts S256
  shapeCasts_S128_S1x128 : S128.ShapeCasts S1x128
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  scatter_S50000x96_S800000x1_S800000x96_1_0_0_1_wf : ScatterDims.WF S50000x96 S800000x1 S800000x96 [1] [0] [0] 1
  scatter_S50000x1_S800000x1_S800000x1_1_0_0_1_wf : ScatterDims.WF S50000x1 S800000x1 S800000x1 [1] [0] [0] 1
  gather_S64x64_S50000x1_S50000x64_1_0_n_n_0_1_164_wf : GatherDims.WF S64x64 S50000x1 S50000x64 [1] [0] [] [0] [] 1 ![1, 64]
  dot_S1000x128_S128x256_S1000x256_1_0_0_1_n_n_wf : DotDims.WF S1000x128 S128x256 S1000x256 [1] [0] [0] [1] [] []
  dot_S1000x96_S96x256_S1000x256_1_0_0_1_n_n_wf : DotDims.WF S1000x96 S96x256 S1000x256 [1] [0] [0] [1] [] []
  dot_S1000x64_S64x256_S1000x256_1_0_0_1_n_n_wf : DotDims.WF S1000x64 S64x256 S1000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x96.size a ≤ S50000x96.size a
  hwx0_1 : ∀ i : grid0.Coords, EltTy.bits .f32 = 32 ∨ (Rect.block (s := S50000x96) S1000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S50000x64.size a
  hwx0_2 : ∀ i : grid0.Coords, EltTy.bits .f32 = 32 ∨ (Rect.block (s := S50000x64) S1000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x256.size a ≤ S96x256.size a
  hwx0_4 : ∀ i : grid0.Coords, EltTy.bits .f32 = 32 ∨ (Rect.block (s := S96x256) S96x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S50000x256.size a
  hwx0_7 : ∀ i : grid0.Coords, EltTy.bits .f32 = 32 ∨ (Rect.block (s := S50000x256) S1000x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S50000x128.size a
  hwx1_7 : ∀ i : grid1.Coords, EltTy.bits .f32 = 32 ∨ (Rect.block (s := S50000x128) S1000x128.size (cc1_transform_7 i) (hinb1_7 i)).WholeWords (EltTy.packing .f32)

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x96_S96x256_S1000x256_1_0_0_1_n_n : DotDims S1000x96 S96x256 S1000x256 where
  lhsContracting := [1]
  rhsContracting := [0]
  lhsNonContracting := [0]
  rhsNonContracting := [1]
  lhsBatch := []
  rhsBatch := []
  wf := dot_S1000x96_S96x256_S1000x256_1_0_0_1_n_n_wf
def dot_S1000x64_S64x256_S1000x256_1_0_0_1_n_n : DotDims S1000x64 S64x256 S1000x256 where
  lhsContracting := [1]
  rhsContracting := [0]
  lhsNonContracting := [0]
  rhsNonContracting := [1]
  lhsBatch := []
  rhsBatch := []
  wf := dot_S1000x64_S64x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S96x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S1000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S1x256.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24_2) S1x256.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v24_0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x96 : Shape := ⟨2, ![800000, 96]⟩
abbrev S64x64 : Shape := ⟨2, ![64, 64]⟩
abbrev S50000 : Shape := ⟨1, ![50000]⟩
abbrev S288x256 : Shape := ⟨2, ![288, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x96 : Shape := ⟨2, ![50000, 96]⟩
abbrev S800000x1 : Shape := ⟨2, ![800000, 1]⟩
abbrev S50000x1 : Shape := ⟨2, ![50000, 1]⟩
abbrev S50000x64 : Shape := ⟨2, ![50000, 64]⟩
abbrev S50000x288 : Shape := ⟨2, ![50000, 288]⟩
abbrev S50000x256 : Shape := ⟨2, ![50000, 256]⟩
abbrev S1x256 : Shape := ⟨2, ![1, 256]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x96, .f32⟩
  | .hbm, ⟨3, _⟩ => ⟨S64x64, .f32⟩
  | .hbm, ⟨4, _⟩ => ⟨S50000, .i32⟩
  | .hbm, ⟨5, _⟩ => ⟨S288x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000x96, .f32⟩
  | .hbm, ⟨15, _⟩ => ⟨S800000x1, .i32⟩
  | .hbm, ⟨16, _⟩ => ⟨S50000x96, .f32⟩
  | .hbm, ⟨17, _⟩ => ⟨S_, .f32⟩
  | .hbm, ⟨18, _⟩ => ⟨S800000x1, .f32⟩
  | .hbm, ⟨19, _⟩ => ⟨S_, .f32⟩
  | .hbm, ⟨20, _⟩ => ⟨S50000x1, .f32⟩
  | .hbm, ⟨21, _⟩ => ⟨S800000x1, .i32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S50000x96, .f32⟩
  | .hbm, ⟨27, _⟩ => ⟨S50000x96, .f32⟩
  | .hbm, ⟨28, _⟩ => ⟨S_, .i32⟩
  | .hbm, ⟨29, _⟩ => ⟨S50000, .i32⟩
  | .hbm, ⟨30, _⟩ => ⟨S50000, .i1⟩
  | .hbm, ⟨31, _⟩ => ⟨S_, .i32⟩
  | .hbm, ⟨32, _⟩ => ⟨S50000, .i32⟩
  | .hbm, ⟨33, _⟩ => ⟨S50000, .i32⟩
  | .hbm, ⟨34, _⟩ => ⟨S50000, .i32⟩
  | .hbm, ⟨35, _⟩ => ⟨S50000x1, .i32⟩
  | .hbm, ⟨36, _⟩ => ⟨S50000x64, .f32⟩
  | .hbm, ⟨37, _⟩ => ⟨S50000x288, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call0_cst : Ref sig .tc := ⟨.hbm, 72, rfl⟩
abbrev main_call0_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x96 : S_.BroadcastsInDim S50000x96 (![] : Fin 0 → Fin S50000x96.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x96_S50000x64_S50000x288_d1 : Shape.Concatenates [S50000x128, S50000x96, S50000x64] S50000x288 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x96_S800000x1_S800000x96_1_0_0_1_wf : ScatterDims.WF S50000x96 S800000x1 S800000x96 [1] [0] [0] 1
  scatter_S50000x1_S800000x1_S800000x1_1_0_0_1_wf : ScatterDims.WF S50000x1 S800000x1 S800000x1 [1] [0] [0] 1
  gather_S64x64_S50000x1_S50000x64_1_0_n_n_0_1_164_wf : GatherDims.WF S64x64 S50000x1 S50000x64 [1] [0] [] [0] [] 1 ![1, 64]
  dot_S50000x288_S288x256_S50000x256_1_0_0_1_n_n_wf : DotDims.WF S50000x288 S288x256 S50000x256 [1] [0] [0] [1] [] []
  dot_S50000x256_S256x128_S50000x128_1_0_0_1_n_n_wf : DotDims.WF S50000x256 S256x128 S50000x128 [1] [0] [0] [1] [] []

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S50000x288_S288x256_S50000x256_1_0_0_1_n_n : DotDims S50000x288 S288x256 S50000x256 where
  lhsContracting := [1]
  rhsContracting := [0]
  lhsNonContracting := [0]
  rhsNonContracting := [1]
  lhsBatch := []
  rhsBatch := []
  wf := dot_S50000x288_S288x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The functions both programs compute, as plain index-by-index definitions on extended reals over the literal
  shapes: a node model's two-layer perceptron with batch normalisation between the layers.

  Rows are the 50000 nodes. The first layer multiplies the row [x | e | g] (128 + 96 + 64 = 288 features: node
  features, aggregated edge features, the node's graph features) by a 288 × 256 matrix and adds a bias; batch
  normalisation takes each column's mean and (biased) variance over all rows; then an affine map, max with 0,
  a 256 × 128 matrix and a bias.

  One program forms the first layer as three partial products over the three row blocks of the matrix, sums
  each column (and the squares) tile by tile over 50 tiles of 1000 rows, and takes the variance as the mean of
  squares minus the squared mean. The other multiplies the concatenated row by the whole matrix and takes the
  variance as the mean of squared deviations.
-/
import Idealize.ShloMosaic.Lib.ValueIdx
import Idealize.ShloMosaic.PureOps.Ideal

noncomputable section

namespace Cert.Spec

open Idealize.ShloMosaic Idealize.ShloMosaic.ValueIdx

/-- A matrix of extended reals with `a` rows and `b` columns. -/
abbrev Arr (a b : ℕ) : Type := (⟨2, ![a, b]⟩ : Shape).Idx → EReal
/-- A vector of extended reals of length `a`. -/
abbrev Vec1 (a : ℕ) : Type := (⟨1, ![a]⟩ : Shape).Idx → EReal

/-- The variance offset, as both programs print it. -/
abbrev eps : EReal := Ideal.ofBits .f32 0x3727C5AC#32
/-- The divisor of both means, as both programs print it (it denotes the row count, 50000). -/
abbrev cnt : EReal := Ideal.ofBits .f32 0x47435000#32

/-- The first layer as three partial products, added left to right, then the bias row. -/
def lin3 (x : Arr 50000 128) (e : Arr 50000 96) (g : Arr 50000 64) (wx : Arr 128 256) (we : Arr 96 256)
    (wu : Arr 64 256) (b : Arr 1 256) : Arr 50000 256 :=
  fun i => ((∑ k : Fin 128, x (ix2 (i 0) k) * wx (ix2 k (i 1)) + ∑ k : Fin 96, e (ix2 (i 0) k) * we (ix2 k (i 1)))
      + ∑ k : Fin 64, g (ix2 (i 0) k) * wu (ix2 k (i 1))) + b (ix2 0 (i 1))

/-- Row `r` of tile `t`: tiles are 1000 consecutive rows. -/
def tileRow (t : Fin 50) (r : Fin 1000) : Fin 50000 := ⟨1000 * t.val + r.val, by omega⟩

/-- Column sums taken tile by tile: the sum over the 50 tiles of each tile's column sum. -/
def tileSums (h : Arr 50000 256) : Arr 1 256 :=
  fun i => ∑ t : Fin 50, ∑ r : Fin 1000, h (ix2 (tileRow t r) (i 1))

/-- Entrywise square. -/
def sq (h : Arr 50000 256) : Arr 50000 256 := fun i => h i * h i

/-- Normalise with a given mean row and variance row, affine map, max with 0, second layer. -/
def bnOut (h : Arr 50000 256) (mean var gamma beta : Arr 1 256) (w2 : Arr 256 128) (b2 : Arr 1 128) : Arr 50000 128 :=
  fun i => (∑ k : Fin 256,
      max ((((h (ix2 (i 0) k) - mean (ix2 0 k)) * Ideal.rsqrt (var (ix2 0 k) + eps)) * gamma (ix2 0 k)) + beta (ix2 0 k)) 0
        * w2 (ix2 k (i 1))) + b2 (ix2 0 (i 1))

/-- The mean row from a row of column sums. -/
def meanOf (s : Arr 1 256) : Arr 1 256 := fun i => Ideal.div (s i) cnt
/-- The variance row as mean of squares minus squared mean. -/
def varOf (s ss : Arr 1 256) : Arr 1 256 := fun i => Ideal.div (ss i) cnt - meanOf s i * meanOf s i

/-- Rows `off … off + n − 1` of a 288-row matrix: one row block of the first layer's matrix. -/
def rows (off n : ℕ) (hn : off + n ≤ 288) (w : Arr 288 256) : Arr n 256 :=
  fun i => w (ix2 ⟨off + (i 0).val, by have := idx2_lt0 i; omega⟩ (i 1))

/-- A vector read as a one-row matrix. -/
def rowOf {n : ℕ} (v : Vec1 n) : Arr 1 n := fun i => v (ix1 (i 1))

/-- The first layer on the concatenated row: one product over all 288 features, then the bias. -/
def linCat (cat : Arr 50000 288) (w : Arr 288 256) (b : Vec1 256) : Arr 50000 256 :=
  fun i => (∑ k : Fin 288, cat (ix2 (i 0) k) * w (ix2 k (i 1))) + b (ix1 (i 1))

/-- Column means over all rows. -/
def colMean (h : Arr 50000 256) : Vec1 256 := fun j => Ideal.div (∑ r : Fin 50000, h (ix2 r (j 0))) cnt
/-- Column variances as the mean of squared deviations from the column mean. -/
def colVar (h : Arr 50000 256) : Vec1 256 :=
  fun j => Ideal.div (∑ r : Fin 50000, (h (ix2 r (j 0)) - colMean h j) * (h (ix2 r (j 0)) - colMean h j)) cnt

/-- Normalise by the column mean and variance, affine map, max with 0, second layer. -/
def refOut (h : Arr 50000 256) (gamma beta : Vec1 256) (w2 : Arr 256 128) (b2 : Vec1 128) : Arr 50000 128 :=
  fun i => (∑ k : Fin 256,
      max ((((h (ix2 (i 0) k) - colMean h (ix1 k)) * Ideal.rsqrt (colVar h (ix1 k) + eps)) * gamma (ix1 k)) + beta (ix1 k)) 0
        * w2 (ix2 k (i 1))) + b2 (ix1 (i 1))

end Cert.Spec

end
-- ==== Proof.Host.lean ====
/-
  The host operations around the two kernel regions, read at the buffers the regions' windows stage.

  Before the first region: the three row blocks of the first layer's 288 × 256 matrix (rows 0–127, 128–223,
  224–287) are slices of it, and its bias vector is reshaped to a one-row matrix; the aggregated edge features and
  the gathered graph features are kept as the terms the operations compose (nothing of their values is used but
  finiteness). Between the regions: the column sums and the column sums of squares are divided by the row count to
  give the mean row and, as mean of squares minus squared mean, the variance row; scale, shift and the second
  bias are reshaped to one-row matrices.
-/
import proofs.«110835_j6279242186980_1_alg».proof.Proof.Gen.KernelIdeal.Frame
import proofs.«110835_j6279242186980_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The aggregated edge features: per node, the sum of the incoming edges' features over max(count, 1). -/
def eAggr (ei : S2x800000.Idx → BitVec 32) (ea : S800000x96.Idx → EReal) : S50000x96.Idx → EReal :=
  Host.divf (F := Ideal)
    (Host.scatterAdd (F := Ideal) scatter_S50000x96_S800000x1_S800000x96_1_0_0_1
      (broadcastInDim S50000x96 ![] bcast_S_S50000x96 (constant (F := Ideal) S_ .f32 0x00000000#32))
      (broadcastInDim S800000x1 ![0] bcast_S800000_S800000x1_0
        (shapeCast S800000 (extractStridedSlice S1x800000 ![1, 0] ei slices_S2x800000_S1x800000_1_0) shapeCasts_S1x800000_S800000))
      ea)
    (broadcastInDim S50000x96 ![0, 1] bcast_S50000x1_S50000x96_0_1
      (maximumf (F := Ideal)
        (Host.scatterAdd (F := Ideal) scatter_S50000x1_S800000x1_S800000x1_1_0_0_1
          (broadcastInDim S50000x1 ![] bcast_S_S50000x1 (constant (F := Ideal) S_ .f32 0x00000000#32))
          (broadcastInDim S800000x1 ![0] bcast_S800000_S800000x1_0
            (shapeCast S800000 (extractStridedSlice S1x800000 ![1, 0] ei slices_S2x800000_S1x800000_1_0) shapeCasts_S1x800000_S800000))
          (broadcastInDim S800000x1 ![] bcast_S_S800000x1 (constant (F := Ideal) S_ .f32 0x3F800000#32)))
        (broadcastInDim S50000x1 ![] bcast_S_S50000x1 (constant (F := Ideal) S_ .f32 0x3F800000#32))))

/-- The graph features gathered per node (a negative graph number first moved up by 64). -/
def uGath (u : S64x64.Idx → EReal) (b : S50000.Idx → BitVec 32) : S50000x64.Idx → EReal :=
  Host.gather gather_S64x64_S50000x1_S50000x64_1_0_n_n_0_1_164 u
    (broadcastInDim S50000x1 ![0] bcast_S50000_S50000x1_0
      (select (cmpi .slt b (broadcastInDim S50000 ![] bcast_S_S50000 (constantI S_ 32 0#32)))
        (addi b (broadcastInDim S50000 ![] bcast_S_S50000 (constantI S_ 32 64#32))) b))

theorem V1_arg0 (c : Dev nD) : (V1 m ρ c main_arg0 : S50000x128.Idx → EReal) = m ((c.tc : Thread nD τ).loc main_arg0) := by
  show StableHlo.after hostOps0 (W0 m ρ c) (Proc.devRef .tc main_arg0) = _
  after_results

theorem V1_v12 (c : Dev nD) : (V1 m ρ c main_v12 : S50000x96.Idx → EReal)
    = eAggr (m ((c.tc : Thread nD τ).loc main_arg1)) (m ((c.tc : Thread nD τ).loc main_arg2)) := by
  show StableHlo.after hostOps0 (W0 m ρ c) (Proc.devRef .tc main_v12) = _
  after_results
  rfl

set_option maxHeartbeats 2000000 in
theorem V1_v19 (c : Dev nD) : (V1 m ρ c main_v19 : S50000x64.Idx → EReal)
    = uGath (m ((c.tc : Thread nD τ).loc main_arg3)) (m ((c.tc : Thread nD τ).loc main_arg4)) := by
  show StableHlo.after hostOps0 (W0 m ρ c) (Proc.devRef .tc main_v19) = _
  after_results
  rfl

theorem V1_v20 (c : Dev nD) : (V1 m ρ c main_v20 : S128x256.Idx → EReal)
    = Cert.Spec.rows 0 128 (by omega) (m ((c.tc : Thread nD τ).loc main_arg5)) := by
  show StableHlo.after hostOps0 (W0 m ρ c) (Proc.devRef .tc main_v20) = _
  after_results
  funext j
  exact extractStridedSlice_apply _ _ _ j (ix2 ⟨0 + (j 0).val, by have := idx2_lt0 j; omega⟩ (j 1))
    (fun a => by match a with | ⟨0, _⟩ => rfl | ⟨1, _⟩ => exact (Nat.zero_add _).symm)

theorem V1_v21 (c : Dev nD) : (V1 m ρ c main_v21 : S96x256.Idx → EReal)
    = Cert.Spec.rows 128 96 (by omega) (m ((c.tc : Thread nD τ).loc main_arg5)) := by
  show StableHlo.after hostOps0 (W0 m ρ c) (Proc.devRef .tc main_v21) = _
  after_results
  funext j
  exact extractStridedSlice_apply _ _ _ j (ix2 ⟨128 + (j 0).val, by have := idx2_lt0 j; omega⟩ (j 1))
    (fun a => by match a with | ⟨0, _⟩ => rfl | ⟨1, _⟩ => exact (Nat.zero_add _).symm)

theorem V1_v22 (c : Dev nD) : (V1 m ρ c main_v22 : S64x256.Idx → EReal)
    = Cert.Spec.rows 224 64 (by omega) (m ((c.tc : Thread nD τ).loc main_arg5)) := by
  show StableHlo.after hostOps0 (W0 m ρ c) (Proc.devRef .tc main_v22) = _
  after_results
  funext j
  exact extractStridedSlice_apply _ _ _ j (ix2 ⟨224 + (j 0).val, by have := idx2_lt0 j; omega⟩ (j 1))
    (fun a => by match a with | ⟨0, _⟩ => rfl | ⟨1, _⟩ => exact (Nat.zero_add _).symm)

/-- A vector reshaped to one row is the vector read along the row. -/
theorem row_reshape {n : ℕ} (v : (⟨1, ![n]⟩ : Shape).Idx → EReal) (h : (⟨1, ![n]⟩ : Shape).ShapeCasts ⟨2, ![1, n]⟩) :
    shapeCast ⟨2, ![1, n]⟩ v h = Cert.Spec.rowOf v := by
  funext i
  obtain ⟨u, k, rfl⟩ : ∃ (u : Fin 1) (k : Fin n), i = ix2 u k := ⟨i 0, i 1, eq_ix2 i⟩
  exact shapeCast_a_1a_apply v h u k

theorem V1_v23 (c : Dev nD) : (V1 m ρ c main_v23 : S1x256.Idx → EReal)
    = Cert.Spec.rowOf (m ((c.tc : Thread nD τ).loc main_arg6)) := by
  show StableHlo.after hostOps0 (W0 m ρ c) (Proc.devRef .tc main_v23) = _
  after_results
  exact row_reshape _ _

/-! ## Between the regions -/

/-- A one-row matrix reshaped to a vector reads, at `k`, the row's entry `k`. -/
theorem unrow (v : S1x256.Idx → EReal) (k : Fin 256) : shapeCast S256 v shapeCasts_S1x256_S256 (ix1 k) = v (ix2 0 k) :=
  shapeCast_1a_a_apply (a := 256) v _ k

/-- The mean row: the row of column sums over the row count, through a reshape to a vector and back. -/
theorem mean_read (s : S1x256.Idx → EReal) :
    shapeCast S1x256 (shapeCast S256
        (Host.divf (F := Ideal) s (broadcastInDim S1x256 ![] bcast_S_S1x256 (constant (F := Ideal) S_ .f32 0x47435000#32)))
        shapeCasts_S1x256_S256) shapeCasts_S256_S1x256 = Cert.Spec.meanOf s := by
  funext i
  obtain ⟨u, k, rfl⟩ : ∃ (u : Fin 1) (k : Fin 256), i = ix2 u k := ⟨i 0, i 1, eq_ix2 i⟩
  obtain rfl : u = 0 := Subsingleton.elim _ _
  rw [shapeCast_a_1a_apply (a := 256), unrow]
  rfl

/-- The variance row: mean of squares minus squared mean, computed on vectors and reshaped to a row. -/
theorem var_read (s ss : S1x256.Idx → EReal) :
    shapeCast S1x256
      (subf (F := Ideal)
        (shapeCast S256
          (Host.divf (F := Ideal) ss (broadcastInDim S1x256 ![] bcast_S_S1x256 (constant (F := Ideal) S_ .f32 0x47435000#32)))
          shapeCasts_S1x256_S256)
        (mulf (F := Ideal)
          (shapeCast S256
            (Host.divf (F := Ideal) s (broadcastInDim S1x256 ![] bcast_S_S1x256 (constant (F := Ideal) S_ .f32 0x47435000#32)))
            shapeCasts_S1x256_S256)
          (shapeCast S256
            (Host.divf (F := Ideal) s (broadcastInDim S1x256 ![] bcast_S_S1x256 (constant (F := Ideal) S_ .f32 0x47435000#32)))
            shapeCasts_S1x256_S256)))
      shapeCasts_S256_S1x256 = Cert.Spec.varOf s ss := by
  funext i
  obtain ⟨u, k, rfl⟩ : ∃ (u : Fin 1) (k : Fin 256), i = ix2 u k := ⟨i 0, i 1, eq_ix2 i⟩
  obtain rfl : u = 0 := Subsingleton.elim _ _
  rw [shapeCast_a_1a_apply (a := 256), subf_apply, mulf_apply, unrow, unrow]
  rfl

/-- The first region writes none of these argument buffers, and no host operation before it does. -/
theorem W2_arg7 (c : Dev nD) : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results)
theorem W2_arg8 (c : Dev nD) : W2 m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results)
theorem W2_arg9 (c : Dev nD) : W2 m ρ c (Proc.devRef .tc main_arg9) = m ((c.tc : Thread nD τ).loc main_arg9) :=
  (W2_of_ne m ρ c main_arg9 (by decide)).trans (by
    show StableHlo.after hostOps0 (W0 m ρ c) (Proc.devRef .tc main_arg9) = _
    after_results)
theorem W2_arg10 (c : Dev nD) : W2 m ρ c (Proc.devRef .tc main_arg10) = m ((c.tc : Thread nD τ).loc main_arg10) :=
  (W2_of_ne m ρ c main_arg10 (by decide)).trans (by
    show StableHlo.after hostOps0 (W0 m ρ c) (Proc.devRef .tc main_arg10) = _
    after_results)

/-- The first region's three output arrays, as the second stretch finds them. -/
theorem W2_out7 (c : Dev nD) : W2 m ρ c (Proc.devRef .tc main_v24_0) = (dat0 (V1 m ρ) c).arrAt 7 cfg0.N := W2_arr m ρ c 7
theorem W2_out8 (c : Dev nD) : W2 m ρ c (Proc.devRef .tc main_v24_1) = (dat0 (V1 m ρ) c).arrAt 8 cfg0.N := W2_arr m ρ c 8
theorem W2_out9 (c : Dev nD) : W2 m ρ c (Proc.devRef .tc main_v24_2) = (dat0 (V1 m ρ) c).arrAt 9 cfg0.N := W2_arr m ρ c 9

theorem V3_v24_0 (c : Dev nD) : (V3 m ρ c main_v24_0 : S50000x256.Idx → EReal) = (dat0 (V1 m ρ) c).arrAt 7 cfg0.N := by
  show StableHlo.after hostOps1 (W2 m ρ c) (Proc.devRef .tc main_v24_0) = _
  after_results
  exact W2_out7 m ρ c

theorem V3_v33 (c : Dev nD) : (V3 m ρ c main_v33 : S1x256.Idx → EReal)
    = Cert.Spec.meanOf ((dat0 (V1 m ρ) c).arrAt 8 cfg0.N) := by
  show StableHlo.after hostOps1 (W2 m ρ c) (Proc.devRef .tc main_v33) = _
  after_results
  refine (mean_read (W2 m ρ c (Proc.devRef .tc main_v24_1) : S1x256.Idx → EReal)).trans ?_
  exact congrArg Cert.Spec.meanOf (W2_out8 m ρ c)

theorem V3_v34 (c : Dev nD) : (V3 m ρ c main_v34 : S1x256.Idx → EReal)
    = Cert.Spec.varOf ((dat0 (V1 m ρ) c).arrAt 8 cfg0.N) ((dat0 (V1 m ρ) c).arrAt 9 cfg0.N) := by
  show StableHlo.after hostOps1 (W2 m ρ c) (Proc.devRef .tc main_v34) = _
  after_results
  refine (var_read (W2 m ρ c (Proc.devRef .tc main_v24_1) : S1x256.Idx → EReal)
    (W2 m ρ c (Proc.devRef .tc main_v24_2) : S1x256.Idx → EReal)).trans ?_
  exact congrArg₂ Cert.Spec.varOf (W2_out8 m ρ c) (W2_out9 m ρ c)

theorem V3_v35 (c : Dev nD) : (V3 m ρ c main_v35 : S1x256.Idx → EReal) = Cert.Spec.rowOf (m ((c.tc : Thread nD τ).loc main_arg7)) := by
  show StableHlo.after hostOps1 (W2 m ρ c) (Proc.devRef .tc main_v35) = _
  after_results
  rw [W2_arg7 m ρ c]
  exact row_reshape _ _

theorem V3_v36 (c : Dev nD) : (V3 m ρ c main_v36 : S1x256.Idx → EReal) = Cert.Spec.rowOf (m ((c.tc : Thread nD τ).loc main_arg8)) := by
  show StableHlo.after hostOps1 (W2 m ρ c) (Proc.devRef .tc main_v36) = _
  after_results
  rw [W2_arg8 m ρ c]
  exact row_reshape _ _

theorem V3_v37 (c : Dev nD) : (V3 m ρ c main_v37 : S1x128.Idx → EReal) = Cert.Spec.rowOf (m ((c.tc : Thread nD τ).loc main_arg10)) := by
  show StableHlo.after hostOps1 (W2 m ρ c) (Proc.devRef .tc main_v37) = _
  after_results
  rw [W2_arg10 m ρ c]
  exact row_reshape _ _

theorem V3_arg9 (c : Dev nD) : (V3 m ρ c main_arg9 : S256x128.Idx → EReal) = m ((c.tc : Thread nD τ).loc main_arg9) := by
  show StableHlo.after hostOps1 (W2 m ρ c) (Proc.devRef .tc main_arg9) = _
  after_results
  exact W2_arg9 m ρ c

end Cert.KernelIdeal.Host

end
-- ==== Proof.Finite.lean ====
/-
  Finiteness. The precondition says of each float input that every entry's absolute value is below +∞; on the
  extended reals that makes every entry a real number. From real inputs the two host-computed feature arrays are
  real as well: a scatter-add into zeros is a finite sum of real entries whatever the index words are (an update
  that lands outside contributes nothing), its quotient by max(count, 1) divides a real by a real that is at least
  1, and a gather returns entries of its operand.
-/
import proofs.«110835_j6279242186980_1_alg».proof.Pre_finite_inputs
import Idealize.ShloMosaic.Lib.ReduceAll
import Idealize.ShloMosaic.Lib.ValueIdx
import Idealize.ShloMosaic.Lib.Affine
import Idealize.ShloMosaic.PureOps.Ideal

noncomputable section

namespace Cert.Finite

open Idealize.ShloMosaic Idealize.ShloMosaic.ValueIdx

/-- An extended real whose absolute value is below +∞ is a real number. -/
theorem real_of_abs_lt_top (x : EReal) (h : Ideal.cmp .olt (max x (-x)) (Ideal.ofBits .f32 0x7F800000#32) = 1#1) :
    ∃ v : ℝ, x = (v : EReal) := by
  have hinf : Ideal.ofBits .f32 0x7F800000#32 = (⊤ : EReal) := by simp [Ideal.ofBits, Ideal.ieee]
  rw [hinf] at h
  have hlt : max x (-x) < ⊤ := by
    unfold Ideal.cmp at h
    by_contra hc
    simp [hc] at h
  induction x using EReal.rec with
  | bot => simp at hlt
  | top => simp at hlt
  | coe r => exact ⟨r, rfl⟩

instance : Subsingleton (⟨0, ![]⟩ : Shape).Idx := ⟨fun a b => funext fun d => d.elim0⟩

/-- `jnp.all(|a| < +∞)` being true makes every entry of `a` real. -/
theorem all_real {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf a) (broadcastInDim s ![] hb (constant (F := Ideal) ⟨0, ![]⟩ .f32 0x7F800000#32)))
        (constantI ⟨0, ![]⟩ 1 1#1) hr hu ix0 = 1#1) (i : s.Idx) : ∃ v : ℝ, a i = (v : EReal) :=
  real_of_abs_lt_top (a i) (Host.reduce_andi_all _ _ hr hu ix0 h i)

open Cert.Pre_finite_inputs in
/-- Under the precondition the node features, the edge features, the graph features, the first layer's matrix and
    its bias are arrays of reals. -/
theorem reals_of_pre [Cert.Pre_finite_inputs.Facts]
    (a0 : FVec Ideal S50000x128 .f32) (a1 : IVec S2x800000 32) (a2 : FVec Ideal S800000x96 .f32) (a3 : FVec Ideal S64x64 .f32)
    (a4 : IVec S50000 32) (a5 : FVec Ideal S288x256 .f32) (a6 a7 a8 : FVec Ideal S256 .f32) (a9 : FVec Ideal S256x128 .f32)
    (a10 : FVec Ideal S128 .f32)
    (h : fn (F := Ideal) a0 a1 a2 a3 a4 a5 a6 a7 a8 a9 a10 = fun _ => 1#1) :
    (∀ i, ∃ v : ℝ, a0 i = (v : EReal)) ∧ (∀ i, ∃ v : ℝ, a2 i = (v : EReal)) ∧ (∀ i, ∃ v : ℝ, a3 i = (v : EReal))
      ∧ (∀ i, ∃ v : ℝ, a5 i = (v : EReal)) ∧ (∀ i, ∃ v : ℝ, a6 i = (v : EReal)) := by
  have h0 := congrFun h ix0
  dsimp only [fn, fn_part1, fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h6⟩ := IntOp.andi_eq_one.1 h0
  obtain ⟨h0, h5⟩ := IntOp.andi_eq_one.1 h0
  obtain ⟨h0, h3⟩ := IntOp.andi_eq_one.1 h0
  obtain ⟨h00, h2⟩ := IntOp.andi_eq_one.1 h0
  exact ⟨all_real a0 _ _ _ h00, all_real a2 _ _ _ h2, all_real a3 _ _ _ h3, all_real a5 _ _ _ h5, all_real a6 _ _ _ h6⟩

/-! ## The host-computed features -/

/-- A finite sum of reals is a real. -/
theorem real_sum {ι : Type} (s : Finset ι) (f : ι → EReal) (hf : ∀ i ∈ s, ∃ v : ℝ, f i = (v : EReal)) :
    ∃ v : ℝ, ∑ i ∈ s, f i = (v : EReal) := by
  classical
  induction s using Finset.induction_on with
  | empty => exact ⟨0, by simp⟩
  | insert a s ha ih =>
    obtain ⟨v, hv⟩ := hf a (Finset.mem_insert_self _ _)
    obtain ⟨w, hw⟩ := ih fun i hi => hf i (Finset.mem_insert_of_mem hi)
    exact ⟨v + w, by rw [Finset.sum_insert ha, hv, hw, EReal.coe_add]⟩

/-- A scatter-add of real updates into a real operand is real, whatever the index words. -/
theorem real_scatterAdd {s si su : Shape} {w : ℕ} (d : ScatterDims s si su) (x : s.Idx → EReal) (idx : IVec si w)
    (upd : su.Idx → EReal) (hx : ∀ i, ∃ v : ℝ, x i = (v : EReal)) (hu : ∀ j, ∃ v : ℝ, upd j = (v : EReal)) (i : s.Idx) :
    ∃ v : ℝ, Host.scatterAdd (F := Ideal) (φ := .f32) d x idx upd i = (v : EReal) := by
  obtain ⟨a, ha⟩ := hx i
  obtain ⟨b, hb⟩ := real_sum (Finset.univ.filter fun j => d.resultIdx? j idx = some i) upd fun j _ => hu j
  refine ⟨a + b, ?_⟩
  show Ideal.hostScatterAdd d x idx upd i = _
  unfold Ideal.hostScatterAdd
  rw [ha, hb, EReal.coe_add]

end Cert.Finite

end
-- ==== Proof.Features.lean ====
/-
  The two host-computed feature arrays hold reals when the inputs do: the aggregated edge features are a real sum
  over a real count clamped from below by 1, and the gathered graph features are entries of the graph-feature table.
-/
import proofs.«110835_j6279242186980_1_alg».proof.Proof.Host
import proofs.«110835_j6279242186980_1_alg».proof.Proof.Finite
import Idealize.ShloMosaic.PureOps.Ideal.Laws

noncomputable section

namespace Cert.KernelIdeal.Host

open Cert.KernelIdeal
open Idealize.ShloMosaic Idealize.ShloMosaic.ValueIdx

/-- The word the count is clamped by denotes 1. -/
theorem one_eq : Ideal.ofBits .f32 0x3F800000#32 = ((1 : ℝ) : EReal) := by
  simp [Ideal.ofBits, Ideal.ieee, -EReal.coe_mul]; norm_num

/-- A real over the maximum of a real and 1 is a real. -/
theorem real_div_max {A C : EReal} (hA : ∃ v : ℝ, A = (v : EReal)) (hC : ∃ v : ℝ, C = (v : EReal)) :
    ∃ v : ℝ, Ideal.div A (max C (Ideal.ofBits .f32 0x3F800000#32)) = (v : EReal) := by
  obtain ⟨a, rfl⟩ := hA
  obtain ⟨c, rfl⟩ := hC
  rw [one_eq]
  rcases le_total c 1 with h | h
  · rw [max_eq_right (EReal.coe_le_coe_iff.2 h), Ideal.div_coe one_ne_zero]
    exact ⟨a * (1 / 1), (EReal.coe_mul _ _).symm⟩
  · have hc : c ≠ 0 := (lt_of_lt_of_le one_pos h).ne'
    rw [max_eq_left (EReal.coe_le_coe_iff.2 h), Ideal.div_coe hc]
    exact ⟨a * (1 / c), (EReal.coe_mul _ _).symm⟩

/-- The quotient of a real array by a broadcast of the maximum of a real array and 1 is real, for any shapes. -/
theorem real_div_bcast_max {s s1 : Shape} (A : s.Idx → EReal) (C : s1.Idx → EReal) (dims : Fin s1.rank → Fin s.rank)
    (h : s1.BroadcastsInDim s dims) (h1 : (⟨0, ![]⟩ : Shape).BroadcastsInDim s1 (![] : Fin 0 → Fin s1.rank))
    (hA : ∀ i, ∃ v : ℝ, A i = (v : EReal)) (hC : ∀ k, ∃ v : ℝ, C k = (v : EReal)) (i : s.Idx) :
    ∃ v : ℝ, Host.divf (F := Ideal) (φ := .f32) A
      (broadcastInDim s dims h (maximumf (F := Ideal) (φ := .f32) C
        (broadcastInDim s1 ![] h1 (constant (F := Ideal) ⟨0, ![]⟩ .f32 0x3F800000#32)))) i = (v : EReal) :=
  real_div_max (hA i) (hC _)

/-- A broadcast of the zero word is an array of reals. -/
theorem real_bcast_zero {s : Shape} (h : (⟨0, ![]⟩ : Shape).BroadcastsInDim s (![] : Fin 0 → Fin s.rank)) (i : s.Idx) :
    ∃ v : ℝ, broadcastInDim s ![] h (constant (F := Ideal) ⟨0, ![]⟩ .f32 0x00000000#32) i = (v : EReal) :=
  ⟨0, Ideal.ofBits_zero_f32.trans EReal.coe_zero.symm⟩

/-- A broadcast of the word of 1 is an array of reals. -/
theorem real_bcast_one {s : Shape} (h : (⟨0, ![]⟩ : Shape).BroadcastsInDim s (![] : Fin 0 → Fin s.rank)) (i : s.Idx) :
    ∃ v : ℝ, broadcastInDim s ![] h (constant (F := Ideal) ⟨0, ![]⟩ .f32 0x3F800000#32) i = (v : EReal) :=
  ⟨1, one_eq⟩

/-- The aggregated edge features of real edge features are real, whatever the edge index words. -/
theorem eAggr_real (ei : S2x800000.Idx → BitVec 32) (ea : S800000x96.Idx → EReal)
    (hea : ∀ j, ∃ v : ℝ, ea j = (v : EReal)) (i : S50000x96.Idx) : ∃ v : ℝ, eAggr ei ea i = (v : EReal) := by
  delta eAggr
  exact real_div_bcast_max _ _ _ _ _
    (Cert.Finite.real_scatterAdd _ _ _ _ (real_bcast_zero _) hea)
    (Cert.Finite.real_scatterAdd _ _ _ _ (real_bcast_zero _) (real_bcast_one _)) i

/-- The gathered graph features of a real table are real, whatever the graph number words. -/
theorem uGath_real (u : S64x64.Idx → EReal) (b : S50000.Idx → BitVec 32) (hu : ∀ j, ∃ v : ℝ, u j = (v : EReal))
    (i : S50000x64.Idx) : ∃ v : ℝ, uGath u b i = (v : EReal) := hu _

end Cert.KernelIdeal.Host

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.Region0.lean ====
/-
  The first kernel region's value, at the exact instance.

  The region walks 50 tiles of 1000 rows. At each tile it forms the first layer's tile — three partial products
  (node features, aggregated edge features, graph features, each against its row block of the layer's matrix)
  added left to right, plus the bias row — and writes it to the tile's rows of the first output; it adds the
  tile's column sums, and the column sums of its squares, into two one-row accumulators that are reset to zero at
  the first tile and written out after the last. So after the region the first output is the whole first layer,
  and the two rows are the column sums (and sums of squares) taken tile by tile.
-/
import proofs.«110835_j6279242186980_1_alg».proof.Proof.Spec
import proofs.«110835_j6279242186980_1_alg».proof.Proof.LibMatmulPlain
import proofs.«110835_j6279242186980_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

/-! ## What each control case leaves in each output's buffer -/

section Pieces

variable {F : FTy → Type} [FloatOps F]

theorem hz : (![0, 0] : Fin 2 → Nat) = fun _ => 0 := funext fun a => by fin_cases a <;> rfl

/-- First tile, first output: the tile of the first layer. -/
theorem out_A_7 (c : Dev nD) (i : grid0.Coords) (a1 : Memref sig .tc .vmem S1000x128 .f32) (h1 : a1.IsWhole)
    (a2 : Memref sig .tc .vmem S1000x96 .f32) (h2 : a2.IsWhole) (a3 : Memref sig .tc .vmem S1000x64 .f32) (h3 : a3.IsWhole)
    (a4 : Memref sig .tc .vmem S128x256 .f32) (h4 : a4.IsWhole) (a5 : Memref sig .tc .vmem S96x256 .f32) (h5 : a5.IsWhole)
    (a6 : Memref sig .tc .vmem S64x256 .f32) (h6 : a6.IsWhole) (a7 : Memref sig .tc .vmem S1x256 .f32) (h7 : a7.IsWhole)
    (a8 : Memref sig .tc .vmem S1000x256 .f32) (h8 : a8.IsWhole) (a9 : Memref sig .tc .vmem S1x256 .f32) (h9 : a9.IsWhole)
    (a10 : Memref sig .tc .vmem S1x256 .f32) (h10 : a10.IsWhole) (hc : cond0_0 i)
    (x0 : Vec F S1000x128 .f32) (x1 : Vec F S1000x96 .f32) (x2 : Vec F S1000x64 .f32) (x3 : Vec F S128x256 .f32)
    (x4 : Vec F S96x256 .f32) (x5 : Vec F S64x256 .f32) (x6 : Vec F S1x256 .f32) :
    out0_A_7 c i a1 h1 a2 h2 a3 h3 a4 h4 a5 h5 a6 h6 a7 h7 a8 h8 a9 h9 a10 h10 hc x0 x1 x2 x3 x4 x5 x6
      = k0_pay5 x0 x3 x1 x4 x2 x5 x6 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread, View.ld_unit_zero (S := S1000x128) hz, View.ld_unit_zero (S := S1000x96) hz,
    View.ld_unit_zero (S := S1000x64) hz, View.ld_unit_zero (S := S128x256) hz, View.ld_unit_zero (S := S96x256) hz,
    View.ld_unit_zero (S := S64x256) hz, View.ld_unit_zero (S := S1x256) hz]

/-- First tile, second output: the accumulator is set to zero, read back, and the tile's column sums are added. -/
theorem out_A_8 (c : Dev nD) (i : grid0.Coords) (a1 : Memref sig .tc .vmem S1000x128 .f32) (h1 : a1.IsWhole)
    (a2 : Memref sig .tc .vmem S1000x96 .f32) (h2 : a2.IsWhole) (a3 : Memref sig .tc .vmem S1000x64 .f32) (h3 : a3.IsWhole)
    (a4 : Memref sig .tc .vmem S128x256 .f32) (h4 : a4.IsWhole) (a5 : Memref sig .tc .vmem S96x256 .f32) (h5 : a5.IsWhole)
    (a6 : Memref sig .tc .vmem S64x256 .f32) (h6 : a6.IsWhole) (a7 : Memref sig .tc .vmem S1x256 .f32) (h7 : a7.IsWhole)
    (a8 : Memref sig .tc .vmem S1000x256 .f32) (h8 : a8.IsWhole) (a9 : Memref sig .tc .vmem S1x256 .f32) (h9 : a9.IsWhole)
    (a10 : Memref sig .tc .vmem S1x256 .f32) (h10 : a10.IsWhole) (hc : cond0_0 i)
    (x0 : Vec F S1000x128 .f32) (x1 : Vec F S1000x96 .f32) (x2 : Vec F S1000x64 .f32) (x3 : Vec F S128x256 .f32)
    (x4 : Vec F S96x256 .f32) (x5 : Vec F S64x256 .f32) (x6 : Vec F S1x256 .f32) :
    out0_A_8 c i a1 h1 a2 h2 a3 h3 a4 h4 a5 h5 a6 h6 a7 h7 a8 h8 a9 h9 a10 h10 hc x0 x1 x2 x3 x4 x5 x6
      = k0_pay3 (k0_pay6 x0 x3 x1 x4 x2 x5 x6) (k0_pay1 (F := F)) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread,
    h6.read_unread, h7.read_unread, h9.read_unread, h10.read_unread, View.ld_unit_zero (S := S1000x128) hz, View.ld_unit_zero (S := S1000x96) hz,
    View.ld_unit_zero (S := S1000x64) hz, View.ld_unit_zero (S := S128x256) hz, View.ld_unit_zero (S := S96x256) hz,
    View.ld_unit_zero (S := S64x256) hz, View.ld_unit_zero (S := S1x256) hz]

/-- First tile, third output: the same for the column sums of squares. -/
theorem out_A_9 (c : Dev nD) (i : grid0.Coords) (a1 : Memref sig .tc .vmem S1000x128 .f32) (h1 : a1.IsWhole)
    (a2 : Memref sig .tc .vmem S1000x96 .f32) (h2 : a2.IsWhole) (a3 : Memref sig .tc .vmem S1000x64 .f32) (h3 : a3.IsWhole)
    (a4 : Memref sig .tc .vmem S128x256 .f32) (h4 : a4.IsWhole) (a5 : Memref sig .tc .vmem S96x256 .f32) (h5 : a5.IsWhole)
    (a6 : Memref sig .tc .vmem S64x256 .f32) (h6 : a6.IsWhole) (a7 : Memref sig .tc .vmem S1x256 .f32) (h7 : a7.IsWhole)
    (a8 : Memref sig .tc .vmem S1000x256 .f32) (h8 : a8.IsWhole) (a9 : Memref sig .tc .vmem S1x256 .f32) (h9 : a9.IsWhole)
    (a10 : Memref sig .tc .vmem S1x256 .f32) (h10 : a10.IsWhole) (hc : cond0_0 i)
    (x0 : Vec F S1000x128 .f32) (x1 : Vec F S1000x96 .f32) (x2 : Vec F S1000x64 .f32) (x3 : Vec F S128x256 .f32)
    (x4 : Vec F S96x256 .f32) (x5 : Vec F S64x256 .f32) (x6 : Vec F S1x256 .f32) :
    out0_A_9 c i a1 h1 a2 h2 a3 h3 a4 h4 a5 h5 a6 h6 a7 h7 a8 h8 a9 h9 a10 h10 hc x0 x1 x2 x3 x4 x5 x6
      = k0_pay4 (k0_pay7 x0 x3 x1 x4 x2 x5 x6) (k0_pay2 (F := F)) := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread,
    h6.read_unread, h7.read_unread, h9.read_unread, h10.read_unread, View.ld_unit_zero (S := S1000x128) hz, View.ld_unit_zero (S := S1000x96) hz,
    View.ld_unit_zero (S := S1000x64) hz, View.ld_unit_zero (S := S128x256) hz, View.ld_unit_zero (S := S96x256) hz,
    View.ld_unit_zero (S := S64x256) hz, View.ld_unit_zero (S := S1x256) hz]

/-- Later tiles, first output: the tile of the first layer. -/
theorem out_B_7 (c : Dev nD) (i : grid0.Coords) (a1 : Memref sig .tc .vmem S1000x128 .f32) (h1 : a1.IsWhole)
    (a2 : Memref sig .tc .vmem S1000x96 .f32) (h2 : a2.IsWhole) (a3 : Memref sig .tc .vmem S1000x64 .f32) (h3 : a3.IsWhole)
    (a4 : Memref sig .tc .vmem S128x256 .f32) (h4 : a4.IsWhole) (a5 : Memref sig .tc .vmem S96x256 .f32) (h5 : a5.IsWhole)
    (a6 : Memref sig .tc .vmem S64x256 .f32) (h6 : a6.IsWhole) (a7 : Memref sig .tc .vmem S1x256 .f32) (h7 : a7.IsWhole)
    (a8 : Memref sig .tc .vmem S1000x256 .f32) (h8 : a8.IsWhole) (a9 : Memref sig .tc .vmem S1x256 .f32) (h9 : a9.IsWhole)
    (a10 : Memref sig .tc .vmem S1x256 .f32) (h10 : a10.IsWhole) (hc : ¬cond0_0 i)
    (x0 : Vec F S1000x128 .f32) (x1 : Vec F S1000x96 .f32) (x2 : Vec F S1000x64 .f32) (x3 : Vec F S128x256 .f32)
    (x4 : Vec F S96x256 .f32) (x5 : Vec F S64x256 .f32) (x6 : Vec F S1x256 .f32) (xo8 xo9 : Vec F S1x256 .f32) :
    out0_B_7 c i a1 h1 a2 h2 a3 h3 a4 h4 a5 h5 a6 h6 a7 h7 a8 h8 a9 h9 a10 h10 hc x0 x1 x2 x3 x4 x5 x6 xo8 xo9
      = k0_pay5 x0 x3 x1 x4 x2 x5 x6 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread, View.ld_unit_zero (S := S1000x128) hz, View.ld_unit_zero (S := S1000x96) hz,
    View.ld_unit_zero (S := S1000x64) hz, View.ld_unit_zero (S := S128x256) hz, View.ld_unit_zero (S := S96x256) hz,
    View.ld_unit_zero (S := S64x256) hz, View.ld_unit_zero (S := S1x256) hz]

/-- Later tiles, second output: the tile's column sums are added to what the accumulator held. -/
theorem out_B_8 (c : Dev nD) (i : grid0.Coords) (a1 : Memref sig .tc .vmem S1000x128 .f32) (h1 : a1.IsWhole)
    (a2 : Memref sig .tc .vmem S1000x96 .f32) (h2 : a2.IsWhole) (a3 : Memref sig .tc .vmem S1000x64 .f32) (h3 : a3.IsWhole)
    (a4 : Memref sig .tc .vmem S128x256 .f32) (h4 : a4.IsWhole) (a5 : Memref sig .tc .vmem S96x256 .f32) (h5 : a5.IsWhole)
    (a6 : Memref sig .tc .vmem S64x256 .f32) (h6 : a6.IsWhole) (a7 : Memref sig .tc .vmem S1x256 .f32) (h7 : a7.IsWhole)
    (a8 : Memref sig .tc .vmem S1000x256 .f32) (h8 : a8.IsWhole) (a9 : Memref sig .tc .vmem S1x256 .f32) (h9 : a9.IsWhole)
    (a10 : Memref sig .tc .vmem S1x256 .f32) (h10 : a10.IsWhole) (hc : ¬cond0_0 i)
    (x0 : Vec F S1000x128 .f32) (x1 : Vec F S1000x96 .f32) (x2 : Vec F S1000x64 .f32) (x3 : Vec F S128x256 .f32)
    (x4 : Vec F S96x256 .f32) (x5 : Vec F S64x256 .f32) (x6 : Vec F S1x256 .f32) (xo8 xo9 : Vec F S1x256 .f32) :
    out0_B_8 c i a1 h1 a2 h2 a3 h3 a4 h4 a5 h5 a6 h6 a7 h7 a8 h8 a9 h9 a10 h10 hc x0 x1 x2 x3 x4 x5 x6 xo8 xo9
      = k0_pay3 (k0_pay6 x0 x3 x1 x4 x2 x5 x6) xo8 := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread, View.ld_unit_zero (S := S1000x128) hz, View.ld_unit_zero (S := S1000x96) hz,
    View.ld_unit_zero (S := S1000x64) hz, View.ld_unit_zero (S := S128x256) hz, View.ld_unit_zero (S := S96x256) hz,
    View.ld_unit_zero (S := S64x256) hz, View.ld_unit_zero (S := S1x256) hz]

/-- Later tiles, third output: the same for the column sums of squares. -/
theorem out_B_9 (c : Dev nD) (i : grid0.Coords) (a1 : Memref sig .tc .vmem S1000x128 .f32) (h1 : a1.IsWhole)
    (a2 : Memref sig .tc .vmem S1000x96 .f32) (h2 : a2.IsWhole) (a3 : Memref sig .tc .vmem S1000x64 .f32) (h3 : a3.IsWhole)
    (a4 : Memref sig .tc .vmem S128x256 .f32) (h4 : a4.IsWhole) (a5 : Memref sig .tc .vmem S96x256 .f32) (h5 : a5.IsWhole)
    (a6 : Memref sig .tc .vmem S64x256 .f32) (h6 : a6.IsWhole) (a7 : Memref sig .tc .vmem S1x256 .f32) (h7 : a7.IsWhole)
    (a8 : Memref sig .tc .vmem S1000x256 .f32) (h8 : a8.IsWhole) (a9 : Memref sig .tc .vmem S1x256 .f32) (h9 : a9.IsWhole)
    (a10 : Memref sig .tc .vmem S1x256 .f32) (h10 : a10.IsWhole) (hc : ¬cond0_0 i)
    (x0 : Vec F S1000x128 .f32) (x1 : Vec F S1000x96 .f32) (x2 : Vec F S1000x64 .f32) (x3 : Vec F S128x256 .f32)
    (x4 : Vec F S96x256 .f32) (x5 : Vec F S64x256 .f32) (x6 : Vec F S1x256 .f32) (xo8 xo9 : Vec F S1x256 .f32) :
    out0_B_9 c i a1 h1 a2 h2 a3 h3 a4 h4 a5 h5 a6 h6 a7 h7 a8 h8 a9 h9 a10 h10 hc x0 x1 x2 x3 x4 x5 x6 xo8 xo9
      = k0_pay4 (k0_pay7 x0 x3 x1 x4 x2 x5 x6) xo9 := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread, View.ld_unit_zero (S := S1000x128) hz, View.ld_unit_zero (S := S1000x96) hz,
    View.ld_unit_zero (S := S1000x64) hz, View.ld_unit_zero (S := S128x256) hz, View.ld_unit_zero (S := S96x256) hz,
    View.ld_unit_zero (S := S64x256) hz, View.ld_unit_zero (S := S1x256) hz]

end Pieces

/-! ## The body's arithmetic, entry by entry -/

section Payloads

/-- The three products are plain matrix products: rows by columns, no batch axes. -/
theorem dotX : dot_S1000x128_S128x256_S1000x256_1_0_0_1_n_n = DotDims.plain 1000 128 256 := rfl
theorem dotE : dot_S1000x96_S96x256_S1000x256_1_0_0_1_n_n = DotDims.plain 1000 96 256 := rfl
theorem dotU : dot_S1000x64_S64x256_S1000x256_1_0_0_1_n_n = DotDims.plain 1000 64 256 := rfl

/-- Entry (p, q) of a tile of the first layer: the three partial products of row p with column q, added left to
    right, plus the bias at q. Narrowing a float's format changes nothing at the exact instance. -/
theorem pay5_apply (x0 : Vec Ideal S1000x128 .f32) (w0 : Vec Ideal S128x256 .f32) (x1 : Vec Ideal S1000x96 .f32)
    (w1 : Vec Ideal S96x256 .f32) (x2 : Vec Ideal S1000x64 .f32) (w2 : Vec Ideal S64x256 .f32) (b : Vec Ideal S1x256 .f32)
    (p : Fin 1000) (q : Fin 256) :
    k0_pay5 (F := Ideal) x0 w0 x1 w1 x2 w2 b (ix2 p q)
      = ((∑ k : Fin 128, x0 (ix2 p k) * w0 (ix2 k q) + ∑ k : Fin 96, x1 (ix2 p k) * w1 (ix2 k q))
          + ∑ k : Fin 64, x2 (ix2 p k) * w2 (ix2 k q)) + b (ix2 0 q) := by
  unfold k0_pay5
  simp only [shapeCast_self, addf_apply]
  rw [dotX, dotE, dotU, MatmulPlain.matmul_zero_apply, MatmulPlain.matmul_zero_apply, MatmulPlain.matmul_zero_apply,
    broadcastTo_1b_ab_apply]
  rfl

/-- A sum over the rows of a 1000 × 256 array, kept as a one-row array: entry q is the sum of column q. -/
theorem colsum_apply (v : FVec Ideal S1000x256 .f32) (hacc : (0x00000000#32 : BitVec 32) = 0x00000000#32) (q : Fin 256) :
    shapeCast S1x256 (multiReduction (F := Ideal) .add [0] S256 v 0x00000000#32 reduces_S1000x256_S256 (.inl rfl) hacc)
        shapeCasts_S256_S1x256 (ix2 0 q)
      = ∑ r : Fin 1000, v (ix2 r q) := by
  refine (shapeCast_a_1a_apply _ shapeCasts_S256_S1x256 0 q).trans ?_
  refine (Ideal.multiReduction_add_single v 0x00000000#32 reduces_S1000x256_S256 (.inl rfl) hacc (ix1 q)).trans ?_
  refine Finset.sum_congr rfl fun r _ => congrArg v ?_
  funext a
  apply Fin.ext
  match a with
  | ⟨0, _⟩ => rfl
  | ⟨1, _⟩ => rfl

/-- The tile's column sums. -/
theorem pay6_apply (x0 : Vec Ideal S1000x128 .f32) (w0 : Vec Ideal S128x256 .f32) (x1 : Vec Ideal S1000x96 .f32)
    (w1 : Vec Ideal S96x256 .f32) (x2 : Vec Ideal S1000x64 .f32) (w2 : Vec Ideal S64x256 .f32) (b : Vec Ideal S1x256 .f32)
    (q : Fin 256) :
    k0_pay6 (F := Ideal) x0 w0 x1 w1 x2 w2 b (ix2 0 q) = ∑ r : Fin 1000, k0_pay5 (F := Ideal) x0 w0 x1 w1 x2 w2 b (ix2 r q) := by
  unfold k0_pay6
  exact colsum_apply _ rfl q

/-- The column sums of the tile's squares. -/
theorem pay7_apply (x0 : Vec Ideal S1000x128 .f32) (w0 : Vec Ideal S128x256 .f32) (x1 : Vec Ideal S1000x96 .f32)
    (w1 : Vec Ideal S96x256 .f32) (x2 : Vec Ideal S1000x64 .f32) (w2 : Vec Ideal S64x256 .f32) (b : Vec Ideal S1x256 .f32)
    (q : Fin 256) :
    k0_pay7 (F := Ideal) x0 w0 x1 w1 x2 w2 b (ix2 0 q)
      = ∑ r : Fin 1000, k0_pay5 (F := Ideal) x0 w0 x1 w1 x2 w2 b (ix2 r q) * k0_pay5 (F := Ideal) x0 w0 x1 w1 x2 w2 b (ix2 r q) := by
  unfold k0_pay7
  exact colsum_apply _ rfl q

/-- An accumulator's update: what it held plus the new row. -/
theorem pay3_apply (v28 : FVec Ideal S1x256 .f32) (v35 : Vec Ideal S1x256 .f32) (q : Fin 256) :
    k0_pay3 (F := Ideal) v28 v35 (ix2 0 q) = v35 (ix2 0 q) + v28 (ix2 0 q) := by
  unfold k0_pay3
  simp only [shapeCast_self, addf_apply]
theorem pay4_apply (v31 : FVec Ideal S1x256 .f32) (v39 : Vec Ideal S1x256 .f32) (q : Fin 256) :
    k0_pay4 (F := Ideal) v31 v39 (ix2 0 q) = v39 (ix2 0 q) + v31 (ix2 0 q) := by
  unfold k0_pay4
  simp only [shapeCast_self, addf_apply]

/-- The reset rows are zero. -/
theorem pay1_apply (q : Fin 256) : (k0_pay1 (F := Ideal)) (ix2 0 q) = 0 := Ideal.ofBits_zero_f32
theorem pay2_apply (q : Fin 256) : (k0_pay2 (F := Ideal)) (ix2 0 q) = 0 := Ideal.ofBits_zero_f32

end Payloads

/-! ## The blocks the windows read -/

section Region

variable (V : (c : Dev nD) → (b : Ref sig .tc) → Buf (Elt Ideal) ((c : Thread nD τ).loc b))

/-- A grid point as a tile number. -/
def tileOf (t : Fin cfg0.N) : Fin 50 := ⟨t.val, lt_of_lt_of_eq t.isLt (show cfg0.N = 50 from N_0)⟩

/-- The seven input arrays as the region finds them. -/
abbrev xarr (c : Dev nD) : Vec Ideal S50000x128 .f32 := V c main_arg0
abbrev earr (c : Dev nD) : Vec Ideal S50000x96 .f32 := V c main_v12
abbrev garr (c : Dev nD) : Vec Ideal S50000x64 .f32 := V c main_v19
abbrev wxarr (c : Dev nD) : Vec Ideal S128x256 .f32 := V c main_v20
abbrev wearr (c : Dev nD) : Vec Ideal S96x256 .f32 := V c main_v21
abbrev wuarr (c : Dev nD) : Vec Ideal S64x256 .f32 := V c main_v22
abbrev barr (c : Dev nD) : Vec Ideal S1x256 .f32 := V c main_v23

/-- Their blocks at a grid point. -/
abbrev xblk (c : Dev nD) (t : Fin cfg0.N) : Vec Ideal S1000x128 .f32 := iblk0 V c 0 t
abbrev eblk (c : Dev nD) (t : Fin cfg0.N) : Vec Ideal S1000x96 .f32 := iblk0 V c 1 t
abbrev gblk (c : Dev nD) (t : Fin cfg0.N) : Vec Ideal S1000x64 .f32 := iblk0 V c 2 t
abbrev wxblk (c : Dev nD) (t : Fin cfg0.N) : Vec Ideal S128x256 .f32 := iblk0 V c 3 t
abbrev weblk (c : Dev nD) (t : Fin cfg0.N) : Vec Ideal S96x256 .f32 := iblk0 V c 4 t
abbrev wublk (c : Dev nD) (t : Fin cfg0.N) : Vec Ideal S64x256 .f32 := iblk0 V c 5 t
abbrev bblk (c : Dev nD) (t : Fin cfg0.N) : Vec Ideal S1x256 .f32 := iblk0 V c 6 t

/-- The index maps, decided over the grid: the three row-tiled inputs and the first output are at block row t,
    column block 0; the weights, the bias and the two accumulators stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row r of the block of a row-tiled input at point t is row 1000 t + r of the array. -/
theorem xblk_apply (c : Dev nD) (t : Fin cfg0.N) (r : Fin 1000) (k : Fin 128) :
    xblk V c t (ix2 r k) = xarr V c (ix2 (Spec.tileRow (tileOf t) r) k) := by
  obtain ⟨e0, e1⟩ := (idx_facts t).1
  show V c main_arg0 (((cfg0.win 0).blk t).view.emb (ix2 r k)) = V c main_arg0 _
  refine congrArg (V c main_arg0) (funext fun a => Fin.ext ?_)
  match a with
  | ⟨0, _⟩ => show win0_0.index t (0 : Fin 2) * 1000 + 1 * r.val = 1000 * t.val + r.val; rw [e0]; omega
  | ⟨1, _⟩ => show win0_0.index t (1 : Fin 2) * 128 + 1 * k.val = k.val; rw [e1]; omega
theorem eblk_apply (c : Dev nD) (t : Fin cfg0.N) (r : Fin 1000) (k : Fin 96) :
    eblk V c t (ix2 r k) = earr V c (ix2 (Spec.tileRow (tileOf t) r) k) := by
  obtain ⟨e0, e1⟩ := (idx_facts t).2.1
  show V c main_v12 (((cfg0.win 1).blk t).view.emb (ix2 r k)) = V c main_v12 _
  refine congrArg (V c main_v12) (funext fun a => Fin.ext ?_)
  match a with
  | ⟨0, _⟩ => show win0_1.index t (0 : Fin 2) * 1000 + 1 * r.val = 1000 * t.val + r.val; rw [e0]; omega
  | ⟨1, _⟩ => show win0_1.index t (1 : Fin 2) * 96 + 1 * k.val = k.val; rw [e1]; omega
theorem gblk_apply (c : Dev nD) (t : Fin cfg0.N) (r : Fin 1000) (k : Fin 64) :
    gblk V c t (ix2 r k) = garr V c (ix2 (Spec.tileRow (tileOf t) r) k) := by
  obtain ⟨e0, e1⟩ := (idx_facts t).2.2.1
  show V c main_v19 (((cfg0.win 2).blk t).view.emb (ix2 r k)) = V c main_v19 _
  refine congrArg (V c main_v19) (funext fun a => Fin.ext ?_)
  match a with
  | ⟨0, _⟩ => show win0_2.index t (0 : Fin 2) * 1000 + 1 * r.val = 1000 * t.val + r.val; rw [e0]; omega
  | ⟨1, _⟩ => show win0_2.index t (1 : Fin 2) * 64 + 1 * k.val = k.val; rw [e1]; omega
/-- The weights' and the bias's block is the whole array at every point. -/
theorem wxblk_apply (c : Dev nD) (t : Fin cfg0.N) (k : Fin 128) (q : Fin 256) :
    wxblk V c t (ix2 k q) = wxarr V c (ix2 k q) := by
  obtain ⟨e0, e1⟩ := (idx_facts t).2.2.2.1
  show V c main_v20 (((cfg0.win 3).blk t).view.emb (ix2 k q)) = V c main_v20 _
  refine congrArg (V c main_v20) (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega
theorem weblk_apply (c : Dev nD) (t : Fin cfg0.N) (k : Fin 96) (q : Fin 256) :
    weblk V c t (ix2 k q) = wearr V c (ix2 k q) := by
  obtain ⟨e0, e1⟩ := (idx_facts t).2.2.2.2.1
  show V c main_v21 (((cfg0.win 4).blk t).view.emb (ix2 k q)) = V c main_v21 _
  refine congrArg (V c main_v21) (funext fun a => Fin.ext ?_)
  match a with
  | ⟨0, _⟩ => show win0_4.index t (0 : Fin 2) * 96 + 1 * k.val = k.val; rw [e0]; omega
  | ⟨1, _⟩ => show win0_4.index t (1 : Fin 2) * 256 + 1 * q.val = q.val; rw [e1]; omega
theorem wublk_apply (c : Dev nD) (t : Fin cfg0.N) (k : Fin 64) (q : Fin 256) :
    wublk V c t (ix2 k q) = wuarr V c (ix2 k q) := by
  obtain ⟨e0, e1⟩ := (idx_facts t).2.2.2.2.2.1
  show V c main_v22 (((cfg0.win 5).blk t).view.emb (ix2 k q)) = V c main_v22 _
  refine congrArg (V c main_v22) (funext fun a => Fin.ext ?_)
  match a with
  | ⟨0, _⟩ => show win0_5.index t (0 : Fin 2) * 64 + 1 * k.val = k.val; rw [e0]; omega
  | ⟨1, _⟩ => show win0_5.index t (1 : Fin 2) * 256 + 1 * q.val = q.val; rw [e1]; omega
theorem bblk_apply (c : Dev nD) (t : Fin cfg0.N) (k : Fin 1) (q : Fin 256) :
    bblk V c t (ix2 k q) = barr V c (ix2 k q) := by
  obtain ⟨e0, e1⟩ := (idx_facts t).2.2.2.2.2.2.1
  show V c main_v23 (((cfg0.win 6).blk t).view.emb (ix2 k q)) = V c main_v23 _
  refine congrArg (V c main_v23) (funext fun a => Fin.ext ?_)
  match a with
  | ⟨0, _⟩ => show win0_6.index t (0 : Fin 2) * 1 + 1 * k.val = k.val; rw [e0]; omega
  | ⟨1, _⟩ => show win0_6.index t (1 : Fin 2) * 256 + 1 * q.val = q.val; rw [e1]; omega

/-! ## The tile a point forms, and the accumulators point by point -/

/-- The first layer on the region's arrays. -/
abbrev L (c : Dev nD) : Spec.Arr 50000 256 :=
  Spec.lin3 (V c main_arg0) (V c main_v12) (V c main_v19) (V c main_v20) (V c main_v21) (V c main_v22) (V c main_v23)

/-- The tile formed at point t is rows 1000 t … 1000 t + 999 of the first layer. -/
theorem tile_apply (c : Dev nD) (t : Fin cfg0.N) (r : Fin 1000) (q : Fin 256) :
    k0_pay5 (F := Ideal) (xblk V c t) (wxblk V c t) (eblk V c t) (weblk V c t) (gblk V c t) (wublk V c t) (bblk V c t) (ix2 r q)
      = L V c (ix2 (Spec.tileRow (tileOf t) r) q) := by
  rw [pay5_apply]
  simp only [xblk_apply, eblk_apply, gblk_apply, wxblk_apply, weblk_apply, wublk_apply, bblk_apply]
  rfl

/-- Column q summed over the rows of tile k; zero past the last tile. -/
def tsum (h : Spec.Arr 50000 256) (q : Fin 256) (k : ℕ) : EReal :=
  if hk : k < 50 then ∑ r : Fin 1000, h (ix2 (Spec.tileRow ⟨k, hk⟩ r) q) else 0

/-- Summed over all tiles these are the tile-by-tile column sums. -/
theorem sum_tsum (h : Spec.Arr 50000 256) (q : Fin 256) :
    ∑ k ∈ Finset.range 50, tsum h q k = Spec.tileSums h (ix2 0 q) := by
  rw [← Fin.sum_univ_eq_sum_range (tsum h q) 50]
  exact Finset.sum_congr rfl fun t _ => dif_pos t.isLt

/-- The tile's column sums at point t are tile t's term. -/
theorem pay6_tile (c : Dev nD) (t : Fin cfg0.N) (q : Fin 256) :
    k0_pay6 (F := Ideal) (xblk V c t) (wxblk V c t) (eblk V c t) (weblk V c t) (gblk V c t) (wublk V c t) (bblk V c t) (ix2 0 q) = tsum (L V c) q t.val := by
  have hN : t.val < 50 := lt_of_lt_of_eq t.isLt (show cfg0.N = 50 from N_0)
  rw [pay6_apply]
  unfold tsum
  rw [dif_pos hN]
  exact Finset.sum_congr rfl fun r _ => tile_apply V c t r q

/-- and the column sums of its squares are tile t's term for the squared layer. -/
theorem pay7_tile (c : Dev nD) (t : Fin cfg0.N) (q : Fin 256) :
    k0_pay7 (F := Ideal) (xblk V c t) (wxblk V c t) (eblk V c t) (weblk V c t) (gblk V c t) (wublk V c t) (bblk V c t) (ix2 0 q) = tsum (Spec.sq (L V c)) q t.val := by
  have hN : t.val < 50 := lt_of_lt_of_eq t.isLt (show cfg0.N = 50 from N_0)
  rw [pay7_apply]
  unfold tsum
  rw [dif_pos hN]
  refine Finset.sum_congr rfl fun r _ => ?_
  rw [tile_apply V c t r q]
  rfl

/-- At the first point the second output's buffer is reset to zero and the first tile's column sums are added: it holds tile 0's term. -/
theorem acc8_zero (c : Dev nD) (hn : 0 < cfg0.N) (q : Fin 256) :
    (outsAt0 V c 0 hn).2.1 (ix2 0 q) = tsum (L V c) q 0 := by
  have h0 : (⟨0, hn⟩ : Fin cfg0.N).val % 50 = 0 := rfl
  rw [outsAt0_A V c ⟨0, hn⟩ h0]
  dsimp only
  refine (congrFun (out_A_8 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr h0) (xblk V c ⟨0, hn⟩) (eblk V c ⟨0, hn⟩) (gblk V c ⟨0, hn⟩) (wxblk V c ⟨0, hn⟩) (weblk V c ⟨0, hn⟩) (wublk V c ⟨0, hn⟩) (bblk V c ⟨0, hn⟩)) (ix2 0 q)).trans ?_
  rw [pay3_apply, pay1_apply, zero_add]
  exact pay6_tile V c ⟨0, hn⟩ q

/-- At a later point the tile's column sums are added to what the point before left. -/
theorem acc8_step (c : Dev nD) (t : Fin cfg0.N) (h0 : ¬t.val % 50 = 0) (q : Fin 256) :
    (outsAt0 V c t.val t.isLt).2.1 (ix2 0 q)
      = (outsAt0 V c (t.val - 1) (Nat.lt_of_le_of_lt (Nat.sub_le _ _) t.isLt)).2.1 (ix2 0 q) + tsum (L V c) q t.val := by
  rw [outsAt0_B V c t h0]
  dsimp only
  refine (congrFun (out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (xblk V c t) (eblk V c t) (gblk V c t) (wxblk V c t) (weblk V c t) (wublk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2) (ix2 0 q)).trans ?_
  rw [pay3_apply]
  exact congrArg₂ (· + ·) rfl (pay6_tile V c t q)

/-- So after point t it holds, in column q, the column sums of tiles 0 … t (by induction on the point). -/
theorem acc8 (c : Dev nD) : ∀ (n : ℕ) (t : Fin cfg0.N), t.val = n → ∀ q : Fin 256,
    (outsAt0 V c t.val t.isLt).2.1 (ix2 0 q) = ∑ k ∈ Finset.range (t.val + 1), tsum (L V c) q k := by
  intro n
  induction n with
  | zero =>
    intro t ht q
    obtain ⟨tv, hn⟩ := t
    dsimp only at ht
    subst ht
    dsimp only
    rw [Finset.sum_range_one]
    exact acc8_zero V c hn q
  | succ n ih =>
    intro t ht q
    have hN : cfg0.N = 50 := N_0
    have hlt := t.isLt
    have h0 : ¬t.val % 50 = 0 := by omega
    have e : t.val - 1 + 1 = t.val := by omega
    have hp := ih ⟨t.val - 1, by omega⟩ (by dsimp only; omega) q
    dsimp only at hp
    rw [e] at hp
    rw [acc8_step V c t h0 q, Finset.sum_range_succ, hp]

/-- The same for the third output and the squared layer: tile 0's term at the first point, -/
theorem acc9_zero (c : Dev nD) (hn : 0 < cfg0.N) (q : Fin 256) :
    (outsAt0 V c 0 hn).2.2 (ix2 0 q) = tsum (Spec.sq (L V c)) q 0 := by
  have h0 : (⟨0, hn⟩ : Fin cfg0.N).val % 50 = 0 := rfl
  rw [outsAt0_A V c ⟨0, hn⟩ h0]
  dsimp only
  refine (congrFun (out_A_9 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr h0) (xblk V c ⟨0, hn⟩) (eblk V c ⟨0, hn⟩) (gblk V c ⟨0, hn⟩) (wxblk V c ⟨0, hn⟩) (weblk V c ⟨0, hn⟩) (wublk V c ⟨0, hn⟩) (bblk V c ⟨0, hn⟩)) (ix2 0 q)).trans ?_
  rw [pay4_apply, pay2_apply, zero_add]
  exact pay7_tile V c ⟨0, hn⟩ q

/-- the previous contents plus the tile's term afterwards, -/
theorem acc9_step (c : Dev nD) (t : Fin cfg0.N) (h0 : ¬t.val % 50 = 0) (q : Fin 256) :
    (outsAt0 V c t.val t.isLt).2.2 (ix2 0 q)
      = (outsAt0 V c (t.val - 1) (Nat.lt_of_le_of_lt (Nat.sub_le _ _) t.isLt)).2.2 (ix2 0 q) + tsum (Spec.sq (L V c)) q t.val := by
  rw [outsAt0_B V c t h0]
  dsimp only
  refine (congrFun (out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (xblk V c t) (eblk V c t) (gblk V c t) (wxblk V c t) (weblk V c t) (wublk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2) (ix2 0 q)).trans ?_
  rw [pay4_apply]
  exact congrArg₂ (· + ·) rfl (pay7_tile V c t q)

/-- the terms of tiles 0 … t after point t. -/
theorem acc9 (c : Dev nD) : ∀ (n : ℕ) (t : Fin cfg0.N), t.val = n → ∀ q : Fin 256,
    (outsAt0 V c t.val t.isLt).2.2 (ix2 0 q) = ∑ k ∈ Finset.range (t.val + 1), tsum (Spec.sq (L V c)) q k := by
  intro n
  induction n with
  | zero =>
    intro t ht q
    obtain ⟨tv, hn⟩ := t
    dsimp only at ht
    subst ht
    dsimp only
    rw [Finset.sum_range_one]
    exact acc9_zero V c hn q
  | succ n ih =>
    intro t ht q
    have hN : cfg0.N = 50 := N_0
    have hlt := t.isLt
    have h0 : ¬t.val % 50 = 0 := by omega
    have e : t.val - 1 + 1 = t.val := by omega
    have hp := ih ⟨t.val - 1, by omega⟩ (by dsimp only; omega) q
    dsimp only at hp
    rw [e] at hp
    rw [acc9_step V c t h0 q, Finset.sum_range_succ, hp]

/-! ## What the region leaves in its three output arrays -/

/-- At every point the first output's buffer holds the point's tile of the first layer. -/
theorem out7_apply (c : Dev nD) (t : Fin cfg0.N) (r : Fin 1000) (q : Fin 256) :
    (outsAt0 V c t.val t.isLt).1 (ix2 r q) = L V c (ix2 (Spec.tileRow (tileOf t) r) q) := by
  by_cases h0 : t.val % 50 = 0
  · rw [outsAt0_A V c t h0]
    dsimp only
    exact (congrFun (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (xblk V c t) (eblk V c t) (gblk V c t) (wxblk V c t) (weblk V c t) (wublk V c t) (bblk V c t)) (ix2 r q)).trans (tile_apply V c t r q)
  · rw [outsAt0_B V c t h0]
    dsimp only
    exact (congrFun (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (xblk V c t) (eblk V c t) (gblk V c t) (wxblk V c t) (weblk V c t) (wublk V c t) (bblk V c t) (outsAt0 V c (t.val - 1) (Nat.lt_of_le_of_lt (Nat.sub_le _ _) t.isLt)).2.1 (outsAt0 V c (t.val - 1) (Nat.lt_of_le_of_lt (Nat.sub_le _ _) t.isLt)).2.2) (ix2 r q)).trans (tile_apply V c t r q)

/-- Entry (r, q) of the first output's block at point t is entry (1000 t + r, q) of its array. -/
theorem emb7 (t : Fin cfg0.N) (r : Fin 1000) (q : Fin 256) :
    ((cfg0.win 7).blk t).view.emb (ix2 r q) = ix2 (Spec.tileRow (tileOf t) r) q := by
  obtain ⟨e0, e1⟩ := (idx_facts t).2.2.2.2.2.2.2.1
  refine funext fun a => Fin.ext ?_
  match a with
  | ⟨0, _⟩ => show win0_7.index t (0 : Fin 2) * 1000 + 1 * r.val = 1000 * t.val + r.val; rw [e0]; omega
  | ⟨1, _⟩ => show win0_7.index t (1 : Fin 2) * 256 + 1 * q.val = q.val; rw [e1]; omega

/-- What point t writes back to the first output is its block of the first layer. -/
theorem flushed7 (c : Dev nD) (t : Fin cfg0.N) :
    (dat0 V c).flushed 7 t = ((cfg0.win 7).blk t).view.read (Elt Ideal) (L V c) := by
  show (cfg0.win 7).cut (grid0.coords t) ((dat0 V c).after 7 t) = _
  rw [after0_7]
  funext y
  obtain ⟨r, q, rfl⟩ : ∃ (r : Fin 1000) (q : Fin 256), y = ix2 r q := ⟨y 0, y 1, eq_ix2 y⟩
  show (outsAt0 V c t.val t.isLt).1 (ix2 r q) = L V c (((cfg0.win 7).blk t).view.emb (ix2 r q))
  rw [emb7]
  exact out7_apply V c t r q

/-- Every row of the first output is in the block of the point numbered by its tile. -/
theorem cover7 (i : S50000x256.Idx) :
    ∃ t : Fin cfg0.N, (cfg0.win 7).flush t = true ∧ i ∈ ((cfg0.win 7).blk t).view.set := by
  have hN : cfg0.N = 50 := N_0
  have hi0 : (i 0).val < 50000 := (i 0).isLt
  have hi1 : (i 1).val < 256 := (i 1).isLt
  obtain ⟨t, ht⟩ : ∃ t : Fin cfg0.N, t.val = (i 0).val / 1000 := ⟨⟨(i 0).val / 1000, by omega⟩, rfl⟩
  obtain ⟨e0, e1⟩ := (idx_facts t).2.2.2.2.2.2.2.1
  refine ⟨t, flush0_7 t, ?_⟩
  show i ∈ ((View.whole main_v24_0).slice (win0_7.rect t)).set
  rw [View.set_slice_whole, Rect.mem_set_unit]
  intro a
  match a with
  | ⟨0, _⟩ =>
    show win0_7.index t (0 : Fin 2) * 1000 ≤ (i 0).val ∧ (i 0).val < win0_7.index t (0 : Fin 2) * 1000 + 1000
    rw [e0]; omega
  | ⟨1, _⟩ =>
    show win0_7.index t (1 : Fin 2) * 256 ≤ (i 1).val ∧ (i 1).val < win0_7.index t (1 : Fin 2) * 256 + 256
    rw [e1]; omega

/-- So after the region the first output is the whole first layer. -/
theorem final7 (c : Dev nD) : (dat0 (F := Ideal) V c).arrAt 7 cfg0.N
    = Spec.lin3 (V c main_arg0) (V c main_v12) (V c main_v19) (V c main_v20) (V c main_v21) (V c main_v22) (V c main_v23) :=
  (dat0 V c).arrAt_eq_of_cover 7 (L V c) (fun t _ => flushed7 V c t) cover7

/-- The second output is written back once, after the last point: what is written is the sum of all 50 tiles' column sums. -/
theorem flushed8 (c : Dev nD) (t : Fin cfg0.N) (hf : (cfg0.win 8).flush t = true) :
    (dat0 V c).flushed 8 t = ((cfg0.win 8).blk t).view.read (Elt Ideal) (Spec.tileSums (L V c)) := by
  have hN : cfg0.N = 50 := N_0
  have hlt := t.isLt
  have h49 : t.val = 49 := by have := (flush0_8 t).mp hf; omega
  obtain ⟨e0, e1⟩ := (idx_facts t).2.2.2.2.2.2.2.2.1
  show (cfg0.win 8).cut (grid0.coords t) ((dat0 V c).after 8 t) = _
  rw [after0_8]
  funext y
  obtain ⟨u, q, rfl⟩ : ∃ (u : Fin 1) (q : Fin 256), y = ix2 u q := ⟨y 0, y 1, eq_ix2 y⟩
  obtain rfl : u = 0 := Subsingleton.elim _ _
  show (outsAt0 V c t.val t.isLt).2.1 (ix2 0 q) = (Spec.tileSums (L V c)) (((cfg0.win 8).blk t).view.emb (ix2 0 q))
  have hemb : ((cfg0.win 8).blk t).view.emb (ix2 (0 : Fin 1) q) = ix2 (0 : Fin 1) q := by
    refine funext fun a => Fin.ext ?_
    match a with
    | ⟨0, _⟩ => show win0_8.index t (0 : Fin 2) * 1 + 1 * 0 = 0; rw [e0]
    | ⟨1, _⟩ => show win0_8.index t (1 : Fin 2) * 256 + 1 * q.val = q.val; rw [e1]; omega
  rw [hemb, acc8 V c t.val t rfl q, h49]
  exact sum_tsum _ q

/-- The last point's block is the whole row. -/
theorem cover8 (i : S1x256.Idx) :
    ∃ t : Fin cfg0.N, (cfg0.win 8).flush t = true ∧ i ∈ ((cfg0.win 8).blk t).view.set := by
  have hN : cfg0.N = 50 := N_0
  have hi0 : (i 0).val < 1 := (i 0).isLt
  have hi1 : (i 1).val < 256 := (i 1).isLt
  obtain ⟨t, ht⟩ : ∃ t : Fin cfg0.N, t.val = 49 := ⟨⟨49, by omega⟩, rfl⟩
  obtain ⟨e0, e1⟩ := (idx_facts t).2.2.2.2.2.2.2.2.1
  refine ⟨t, (flush0_8 t).mpr (by omega), ?_⟩
  show i ∈ ((View.whole main_v24_1).slice (win0_8.rect t)).set
  rw [View.set_slice_whole, Rect.mem_set_unit]
  intro a
  match a with
  | ⟨0, _⟩ =>
    show win0_8.index t (0 : Fin 2) * 1 ≤ (i 0).val ∧ (i 0).val < win0_8.index t (0 : Fin 2) * 1 + 1
    rw [e0]; omega
  | ⟨1, _⟩ =>
    show win0_8.index t (1 : Fin 2) * 256 ≤ (i 1).val ∧ (i 1).val < win0_8.index t (1 : Fin 2) * 256 + 256
    rw [e1]; omega

/-- So after the region the second output is the tile-by-tile column sums of the first layer. -/
theorem final8 (c : Dev nD) : (dat0 (F := Ideal) V c).arrAt 8 cfg0.N
    = Spec.tileSums (Spec.lin3 (V c main_arg0) (V c main_v12) (V c main_v19) (V c main_v20) (V c main_v21) (V c main_v22) (V c main_v23)) :=
  (dat0 V c).arrAt_eq_of_cover 8 (Spec.tileSums (L V c)) (flushed8 V c) cover8

/-- The third output likewise, for the squared layer. -/
theorem flushed9 (c : Dev nD) (t : Fin cfg0.N) (hf : (cfg0.win 9).flush t = true) :
    (dat0 V c).flushed 9 t = ((cfg0.win 9).blk t).view.read (Elt Ideal) (Spec.tileSums (Spec.sq (L V c))) := by
  have hN : cfg0.N = 50 := N_0
  have hlt := t.isLt
  have h49 : t.val = 49 := by have := (flush0_9 t).mp hf; omega
  obtain ⟨e0, e1⟩ := (idx_facts t).2.2.2.2.2.2.2.2.2
  show (cfg0.win 9).cut (grid0.coords t) ((dat0 V c).after 9 t) = _
  rw [after0_9]
  funext y
  obtain ⟨u, q, rfl⟩ : ∃ (u : Fin 1) (q : Fin 256), y = ix2 u q := ⟨y 0, y 1, eq_ix2 y⟩
  obtain rfl : u = 0 := Subsingleton.elim _ _
  show (outsAt0 V c t.val t.isLt).2.2 (ix2 0 q) = (Spec.tileSums (Spec.sq (L V c))) (((cfg0.win 9).blk t).view.emb (ix2 0 q))
  have hemb : ((cfg0.win 9).blk t).view.emb (ix2 (0 : Fin 1) q) = ix2 (0 : Fin 1) q := by
    refine funext fun a => Fin.ext ?_
    match a with
    | ⟨0, _⟩ => show win0_9.index t (0 : Fin 2) * 1 + 1 * 0 = 0; rw [e0]
    | ⟨1, _⟩ => show win0_9.index t (1 : Fin 2) * 256 + 1 * q.val = q.val; rw [e1]; omega
  rw [hemb, acc9 V c t.val t rfl q, h49]
  exact sum_tsum _ q

/-- The last point's block is the whole row. -/
theorem cover9 (i : S1x256.Idx) :
    ∃ t : Fin cfg0.N, (cfg0.win 9).flush t = true ∧ i ∈ ((cfg0.win 9).blk t).view.set := by
  have hN : cfg0.N = 50 := N_0
  have hi0 : (i 0).val < 1 := (i 0).isLt
  have hi1 : (i 1).val < 256 := (i 1).isLt
  obtain ⟨t, ht⟩ : ∃ t : Fin cfg0.N, t.val = 49 := ⟨⟨49, by omega⟩, rfl⟩
  obtain ⟨e0, e1⟩ := (idx_facts t).2.2.2.2.2.2.2.2.2
  refine ⟨t, (flush0_9 t).mpr (by omega), ?_⟩
  show i ∈ ((View.whole main_v24_2).slice (win0_9.rect t)).set
  rw [View.set_slice_whole, Rect.mem_set_unit]
  intro a
  match a with
  | ⟨0, _⟩ =>
    show win0_9.index t (0 : Fin 2) * 1 ≤ (i 0).val ∧ (i 0).val < win0_9.index t (0 : Fin 2) * 1 + 1
    rw [e0]; omega
  | ⟨1, _⟩ =>
    show win0_9.index t (1 : Fin 2) * 256 ≤ (i 1).val ∧ (i 1).val < win0_9.index t (1 : Fin 2) * 256 + 256
    rw [e1]; omega

/-- So after the region the third output is the tile-by-tile column sums of the squared first layer. -/
theorem final9 (c : Dev nD) : (dat0 (F := Ideal) V c).arrAt 9 cfg0.N
    = Spec.tileSums (Spec.sq (Spec.lin3 (V c main_arg0) (V c main_v12) (V c main_v19) (V c main_v20) (V c main_v21) (V c main_v22) (V c main_v23))) :=
  (dat0 V c).arrAt_eq_of_cover 9 (Spec.tileSums (Spec.sq (L V c))) (flushed9 V c) cover9

end Region

end Cert.KernelIdeal.Region0

end
-- ==== Proof.Region1.lean ====
/-
  The second kernel region's value. At each of its 50 points the region reads one tile of 1000 rows of the first
  layer's output together with the whole mean, variance, scale and shift rows, the whole 256 × 128 matrix and the
  whole bias row; it normalises each entry, (h − mean) · rsqrt(var + eps) · gamma + beta, takes the maximum with 0,
  multiplies the tile by the matrix and adds the bias row, and writes the tile of 1000 result rows back.

  Three steps. The stored value at row p, column q of a tile, as a sum over the 256 contracted columns (the change
  of float format before the product is the identity on extended reals, and the product accumulates into zero).
  Then: what point t writes back is rows 1000·t … 1000·t + 999 of one whole-array function of the arrays the region
  finds, because the tiled windows sit at block (t, 0) and the others at block (0, 0). Last: row r lies in the
  block of point r / 1000, so the 50 blocks cover the output array, which therefore ends holding that function.
-/
import proofs.«110835_j6279242186980_1_alg».proof.Proof.Spec
import proofs.«110835_j6279242186980_1_alg».proof.Proof.LibMatmulPlain
import proofs.«110835_j6279242186980_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The printed dimension record of the body's product is the plain [1000, 256] × [256, 128] product. -/
theorem dot_plain : dot_S1000x256_S256x128_S1000x128_1_0_0_1_n_n = DotDims.plain 1000 256 128 := rfl

/-- The body's stored value at row p, column q. -/
theorem pay_apply (h : Vec Ideal S1000x256 .f32) (var mean gamma beta : Vec Ideal S1x256 .f32)
    (w2 : Vec Ideal S256x128 .f32) (b2 : Vec Ideal S1x128 .f32) (p : Fin 1000) (q : Fin 128) :
    k1_pay1 h var mean gamma beta w2 b2 (ix2 p q)
      = (∑ k : Fin 256,
          max ((((h (ix2 p k) - mean (ix2 0 k)) * Ideal.rsqrt (var (ix2 0 k) + Cert.Spec.eps)) * gamma (ix2 0 k)) + beta (ix2 0 k)) 0
            * w2 (ix2 k q)) + b2 (ix2 0 q) := by
  unfold k1_pay1
  simp only [shapeCast_self]
  rw [addf_apply, dot_plain, MatmulPlain.matmul_zero_apply, broadcastTo_1b_ab_apply]
  congr 1
  refine Finset.sum_congr rfl fun k _ => ?_
  simp only [truncf_apply, maximumf_apply, addf_apply, mulf_apply, subf_apply, broadcastTo_1b_ab_apply, broadcast_apply]
  rw [show (FloatOps.ofBits FTy.f32 0x00000000#32 : Idealize.ShloMosaic.Ideal FTy.f32) = 0 from Ideal.ofBits_zero_f32]
  rfl

theorem hz : (![0, 0] : Fin 2 → Nat) = fun _ => 0 := funext fun a => by fin_cases a <;> rfl

/-- The printed index maps, decided over the 50 points: the row-tiled windows sit at block (t, 0), the whole-array
    windows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- The region's result as one function of the arrays it finds. -/
abbrev result (c : Dev nD) : S50000x128.Idx → EReal :=
  Cert.Spec.bnOut (V c main_v24_0) (V c main_v33) (V c main_v34) (V c main_v35) (V c main_v36) (V c main_arg9) (V c main_v37)

/-- Window 0's block at point t is rows 1000·t … 1000·t + 999 of its array. -/
theorem blk0_apply (c : Dev nD) (t : Fin cfg1.N) (p : Fin 1000) (k : Fin 256) (r : Fin 50000)
    (hr : r.val = 1000 * t.val + p.val) :
    (iblk1 V c 0 t : Vec Ideal S1000x256 .f32) (ix2 p k) = (V c main_v24_0 : S50000x256.Idx → EReal) (ix2 r k) := by
  obtain ⟨e00, e01, -⟩ := idx_facts t
  unfold iblk1
  rw [View.read_apply]
  show V c main_v24_0 _ = V c main_v24_0 _
  congr 1
  funext a
  apply Fin.ext
  match a with
  | ⟨0, _⟩ => show win1_0.index t (0 : Fin 2) * 1000 + 1 * p.val = r.val; rw [e00, hr]; omega
  | ⟨1, _⟩ => show win1_0.index t (1 : Fin 2) * 256 + 1 * k.val = k.val; rw [e01]; omega

/-- Window 1 holds its whole array at every point. -/
theorem blk1_eq (c : Dev nD) (t : Fin cfg1.N) :
    (iblk1 V c 1 t : Vec Ideal S1x256 .f32) = (V c main_v33 : S1x256.Idx → EReal) := by
  obtain ⟨e00, e01, e10, e11, e20, e21, e30, e31, e40, e41, e50, e51, e60, e61, e70, e71⟩ := idx_facts t
  unfold iblk1
  funext x
  rw [View.read_apply]
  show V c main_v33 _ = V c main_v33 x
  congr 1
  funext a
  apply Fin.ext
  match a with
  | ⟨0, _⟩ => show win1_1.index t (0 : Fin 2) * 1 + 1 * (x 0).val = (x 0).val; rw [e10]; omega
  | ⟨1, _⟩ => show win1_1.index t (1 : Fin 2) * 256 + 1 * (x 1).val = (x 1).val; rw [e11]; omega

/-- Window 2 holds its whole array at every point. -/
theorem blk2_eq (c : Dev nD) (t : Fin cfg1.N) :
    (iblk1 V c 2 t : Vec Ideal S1x256 .f32) = (V c main_v34 : S1x256.Idx → EReal) := by
  obtain ⟨e00, e01, e10, e11, e20, e21, e30, e31, e40, e41, e50, e51, e60, e61, e70, e71⟩ := idx_facts t
  unfold iblk1
  funext x
  rw [View.read_apply]
  show V c main_v34 _ = V c main_v34 x
  congr 1
  funext a
  apply Fin.ext
  match a with
  | ⟨0, _⟩ => show win1_2.index t (0 : Fin 2) * 1 + 1 * (x 0).val = (x 0).val; rw [e20]; omega
  | ⟨1, _⟩ => show win1_2.index t (1 : Fin 2) * 256 + 1 * (x 1).val = (x 1).val; rw [e21]; omega

/-- Window 3 holds its whole array at every point. -/
theorem blk3_eq (c : Dev nD) (t : Fin cfg1.N) :
    (iblk1 V c 3 t : Vec Ideal S1x256 .f32) = (V c main_v35 : S1x256.Idx → EReal) := by
  obtain ⟨e00, e01, e10, e11, e20, e21, e30, e31, e40, e41, e50, e51, e60, e61, e70, e71⟩ := idx_facts t
  unfold iblk1
  funext x
  rw [View.read_apply]
  show V c main_v35 _ = V c main_v35 x
  congr 1
  funext a
  apply Fin.ext
  match a with
  | ⟨0, _⟩ => show win1_3.index t (0 : Fin 2) * 1 + 1 * (x 0).val = (x 0).val; rw [e30]; omega
  | ⟨1, _⟩ => show win1_3.index t (1 : Fin 2) * 256 + 1 * (x 1).val = (x 1).val; rw [e31]; omega

/-- Window 4 holds its whole array at every point. -/
theorem blk4_eq (c : Dev nD) (t : Fin cfg1.N) :
    (iblk1 V c 4 t : Vec Ideal S1x256 .f32) = (V c main_v36 : S1x256.Idx → EReal) := by
  obtain ⟨e00, e01, e10, e11, e20, e21, e30, e31, e40, e41, e50, e51, e60, e61, e70, e71⟩ := idx_facts t
  unfold iblk1
  funext x
  rw [View.read_apply]
  show V c main_v36 _ = V c main_v36 x
  congr 1
  funext a
  apply Fin.ext
  match a with
  | ⟨0, _⟩ => show win1_4.index t (0 : Fin 2) * 1 + 1 * (x 0).val = (x 0).val; rw [e40]; omega
  | ⟨1, _⟩ => show win1_4.index t (1 : Fin 2) * 256 + 1 * (x 1).val = (x 1).val; rw [e41]; omega

/-- Window 5 holds its whole array at every point. -/
theorem blk5_eq (c : Dev nD) (t : Fin cfg1.N) :
    (iblk1 V c 5 t : Vec Ideal S256x128 .f32) = (V c main_arg9 : S256x128.Idx → EReal) := by
  obtain ⟨e00, e01, e10, e11, e20, e21, e30, e31, e40, e41, e50, e51, e60, e61, e70, e71⟩ := idx_facts t
  unfold iblk1
  funext x
  rw [View.read_apply]
  show V c main_arg9 _ = V c main_arg9 x
  congr 1
  funext a
  apply Fin.ext
  match a with
  | ⟨0, _⟩ => show win1_5.index t (0 : Fin 2) * 256 + 1 * (x 0).val = (x 0).val; rw [e50]; omega
  | ⟨1, _⟩ => show win1_5.index t (1 : Fin 2) * 128 + 1 * (x 1).val = (x 1).val; rw [e51]; omega

/-- Window 6 holds its whole array at every point. -/
theorem blk6_eq (c : Dev nD) (t : Fin cfg1.N) :
    (iblk1 V c 6 t : Vec Ideal S1x128 .f32) = (V c main_v37 : S1x128.Idx → EReal) := by
  obtain ⟨e00, e01, e10, e11, e20, e21, e30, e31, e40, e41, e50, e51, e60, e61, e70, e71⟩ := idx_facts t
  unfold iblk1
  funext x
  rw [View.read_apply]
  show V c main_v37 _ = V c main_v37 x
  congr 1
  funext a
  apply Fin.ext
  match a with
  | ⟨0, _⟩ => show win1_6.index t (0 : Fin 2) * 1 + 1 * (x 0).val = (x 0).val; rw [e60]; omega
  | ⟨1, _⟩ => show win1_6.index t (1 : Fin 2) * 128 + 1 * (x 1).val = (x 1).val; rw [e61]; omega

/-- The output window's block at point t sits at rows 1000·t … 1000·t + 999 of its array. -/
theorem out_emb (t : Fin cfg1.N) (p : Fin 1000) (q : Fin 128) (r : Fin 50000) (hr : r.val = 1000 * t.val + p.val) :
    ((cfg1.win 7).blk t).view.emb (ix2 p q) = (ix2 r q : S50000x128.Idx) := by
  obtain ⟨e00, e01, e10, e11, e20, e21, e30, e31, e40, e41, e50, e51, e60, e61, e70, e71⟩ := idx_facts t
  funext a
  apply Fin.ext
  match a with
  | ⟨0, _⟩ => show win1_7.index t (0 : Fin 2) * 1000 + 1 * p.val = r.val; rw [e70, hr]; omega
  | ⟨1, _⟩ => show win1_7.index t (1 : Fin 2) * 128 + 1 * q.val = q.val; rw [e71]; omega

/-- What point t writes back is block t of the result. -/
theorem flushed_eq (c : Dev nD) (t : Fin cfg1.N) :
    (dat1 (F := Ideal) V c).flushed 7 t = ((cfg1.win 7).blk t).view.read (Elt Ideal) (result V c) := by
  show (cfg1.win 7).cut (grid1.coords t) ((dat1 V c).after 7 t) = _
  rw [after1_7]
  unfold out1_7
  rw [View.canon_unit_zero hz]
  simp only [View.ld_unit_zero (S := S1000x256) hz, View.ld_unit_zero (S := S1x256) hz, View.ld_unit_zero (S := S256x128) hz, View.ld_unit_zero (S := S1x128) hz]
  funext j
  obtain ⟨p, q, rfl⟩ : ∃ (p : Fin 1000) (q : Fin 128), j = ix2 p q := ⟨j 0, j 1, eq_ix2 j⟩
  have hlt : 1000 * t.val + p.val < 50000 := by
    have h1 : t.val < 50 := lt_of_lt_of_eq t.isLt N_1
    have h2 := p.isLt
    omega
  show k1_pay1 (iblk1 V c 0 t) (iblk1 V c 2 t) (iblk1 V c 1 t) (iblk1 V c 3 t) (iblk1 V c 4 t) (iblk1 V c 5 t) (iblk1 V c 6 t) (ix2 p q)
      = result V c (((cfg1.win 7).blk t).view.emb (ix2 p q))
  rw [out_emb t p q ⟨1000 * t.val + p.val, hlt⟩ rfl]
  refine (pay_apply (iblk1 V c 0 t) (iblk1 V c 2 t) (iblk1 V c 1 t) (iblk1 V c 3 t) (iblk1 V c 4 t) (iblk1 V c 5 t) (iblk1 V c 6 t) p q).trans ?_
  rw [blk1_eq V c t, blk2_eq V c t, blk3_eq V c t, blk4_eq V c t, blk5_eq V c t, blk6_eq V c t]
  unfold result Cert.Spec.bnOut
  refine congrArg₂ (· + ·) (Finset.sum_congr rfl fun k _ => ?_) rfl
  rw [blk0_apply V c t p k ⟨1000 * t.val + p.val, hlt⟩ rfl]

/-- An index of the output array is in point t's block iff each coordinate is in the block's range on its axis. -/
theorem mem_blk (t : Fin cfg1.N) (i : S50000x128.Idx) :
    i ∈ ((cfg1.win 7).blk t).view.set ↔ ∀ a : Fin 2, win1_7.index t a * S1000x128.size a ≤ (i a).val ∧ (i a).val < win1_7.index t a * S1000x128.size a + S1000x128.size a := by
  show i ∈ ((View.whole main_v38).slice (win1_7.rect t)).set ↔ _
  rw [View.set_slice_whole, Rect.mem_set_unit]
  exact Iff.rfl

/-- Row r of the output array lies in the block of point r / 1000. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 1000 < cfg1.N := lt_of_lt_of_eq (by omega : (i 0).val / 1000 < 50) N_1.symm
  refine ⟨⟨(i 0).val / 1000, ht⟩, flush1_7 _, ?_⟩
  obtain ⟨e00, e01, e10, e11, e20, e21, e30, e31, e40, e41, e50, e51, e60, e61, e70, e71⟩ := idx_facts ⟨(i 0).val / 1000, ht⟩
  rw [mem_blk]
  intro a
  match a with
  | ⟨0, _⟩ =>
    show win1_7.index ⟨(i 0).val / 1000, ht⟩ (0 : Fin 2) * 1000 ≤ (i 0).val ∧ (i 0).val < win1_7.index ⟨(i 0).val / 1000, ht⟩ (0 : Fin 2) * 1000 + 1000
    rw [e70]
    show (i 0).val / 1000 * 1000 ≤ (i 0).val ∧ (i 0).val < (i 0).val / 1000 * 1000 + 1000
    omega
  | ⟨1, _⟩ =>
    show win1_7.index ⟨(i 0).val / 1000, ht⟩ (1 : Fin 2) * 128 ≤ (i 1).val ∧ (i 1).val < win1_7.index ⟨(i 0).val / 1000, ht⟩ (1 : Fin 2) * 128 + 128
    rw [e71]
    omega

/-- The output array after the region: normalisation, affine map, max with 0 and the second layer, of the arrays the
    region finds. -/
theorem final (c : Dev nD) :
    (dat1 (F := Ideal) V c).arrAt 7 cfg1.N
      = Cert.Spec.bnOut (V c main_v24_0) (V c main_v33) (V c main_v34) (V c main_v35) (V c main_v36) (V c main_arg9) (V c main_v37) :=
  (dat1 (F := Ideal) V c).arrAt_eq_of_cover 7 (result V c) (fun t _ => flushed_eq V c t) cover

end Cert.KernelIdeal.Region1

end
-- ==== Proof.Algebra.lean ====
/-
  The algebra that joins the two arrangements of the node model: the first layer as three partial products
  against the three row blocks of its matrix equals the one product with the concatenated row; column sums
  taken tile by tile are the column sums over all rows; and, on real entries, the mean of squares minus the
  squared mean is the mean of squared deviations. Everything after the mean and the variance is the same
  expression in both arrangements and is never opened.
-/
import proofs.«110835_j6279242186980_1_alg».proof.Proof.Spec
import Idealize.ShloMosaic.Lib.ValueIdx
import Idealize.ShloMosaic.PureOps.Ideal
import Mathlib.Data.EReal.Basic
import Mathlib.Data.EReal.Operations
import Mathlib.Algebra.BigOperators.Fin
import Mathlib.Algebra.BigOperators.Group.Finset.Basic
import Mathlib.Data.Fintype.BigOperators
import Mathlib.Logic.Equiv.Fin.Basic
import Mathlib.Tactic.Ring
import Mathlib.Tactic.FieldSimp
import Mathlib.Tactic.NormNum

noncomputable section

namespace Cert.Spec

open Idealize.ShloMosaic Idealize.ShloMosaic.ValueIdx

/-! ## Regrouping sums (any commutative monoid: no finiteness) -/

/-- A sum over 288 = 128 + 96 + 64 indices is the sum over the first 128, the next 96 and the last 64. -/
theorem sum_three_blocks {M : Type*} [AddCommMonoid M] (f : Fin 288 → M) :
    ∑ k : Fin 288, f k
      = (∑ k : Fin 128, f ⟨k.val, by omega⟩ + ∑ k : Fin 96, f ⟨128 + k.val, by omega⟩)
        + ∑ k : Fin 64, f ⟨224 + k.val, by omega⟩ := by
  show ∑ k : Fin (128 + 96 + 64), f k = _
  rw [Fin.sum_univ_add, Fin.sum_univ_add]
  rfl

/-- The 50 tiles of 1000 rows enumerate the 50000 rows: the pair (t, r) is row r + 1000·t. -/
def tileEquiv : Fin 50 × Fin 1000 ≃ Fin 50000 :=
  finProdFinEquiv.trans (finCongr (by norm_num))

theorem tileEquiv_apply (t : Fin 50) (r : Fin 1000) : tileEquiv (t, r) = tileRow t r := by
  apply Fin.ext
  show r.val + 1000 * t.val = 1000 * t.val + r.val
  omega

/-- A sum over 50 tiles of 1000 rows each is the sum over all 50000 rows. -/
theorem sum_tiles {M : Type*} [AddCommMonoid M] (F : Fin 50000 → M) :
    ∑ t : Fin 50, ∑ r : Fin 1000, F (tileRow t r) = ∑ r : Fin 50000, F r := by
  rw [← Equiv.sum_comp tileEquiv F, Fintype.sum_prod_type]
  simp only [tileEquiv_apply]

/-! ## The first layer: three partial products are the one product with the concatenated row -/

theorem lin3_eq_linCat (x : Arr 50000 128) (e : Arr 50000 96) (g : Arr 50000 64) (cat : Arr 50000 288)
    (w : Arr 288 256) (b1 : Vec1 256)
    (hcx : ∀ (r : Fin 50000) (k : Fin 128), cat (ix2 r ⟨k.val, by omega⟩) = x (ix2 r k))
    (hce : ∀ (r : Fin 50000) (k : Fin 96), cat (ix2 r ⟨128 + k.val, by omega⟩) = e (ix2 r k))
    (hcg : ∀ (r : Fin 50000) (k : Fin 64), cat (ix2 r ⟨224 + k.val, by omega⟩) = g (ix2 r k)) :
    lin3 x e g (rows 0 128 (by omega) w) (rows 128 96 (by omega) w) (rows 224 64 (by omega) w) (rowOf b1)
      = linCat cat w b1 := by
  funext i
  obtain ⟨p, q, rfl⟩ : ∃ (p : Fin 50000) (q : Fin 256), i = ix2 p q := ⟨i 0, i 1, eq_ix2 i⟩
  show ((∑ k : Fin 128, x (ix2 p k) * w (ix2 ⟨0 + k.val, by omega⟩ q)
        + ∑ k : Fin 96, e (ix2 p k) * w (ix2 ⟨128 + k.val, by omega⟩ q))
        + ∑ k : Fin 64, g (ix2 p k) * w (ix2 ⟨224 + k.val, by omega⟩ q)) + b1 (ix1 q)
      = (∑ k : Fin 288, cat (ix2 p k) * w (ix2 k q)) + b1 (ix1 q)
  rw [sum_three_blocks (fun k => cat (ix2 p k) * w (ix2 k q))]
  simp only [hcx, hce, hcg, Nat.zero_add]

/-! ## The divisor -/

/-- The divisor both programs print denotes the row count. -/
theorem cnt_eq : cnt = ((50000 : ℝ) : EReal) := by
  simp [Ideal.ofBits, Ideal.ieee, -EReal.coe_mul]; norm_num

/-! ## Real entries -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_add {a b : EReal} (ha : ∃ v : ℝ, a = (v : EReal)) (hb : ∃ v : ℝ, b = (v : EReal)) :
    ∃ v : ℝ, a + b = (v : EReal) := by
  obtain ⟨u, rfl⟩ := ha; obtain ⟨v, rfl⟩ := hb; exact ⟨u + v, (EReal.coe_add u v).symm⟩

theorem real_mul {a b : EReal} (ha : ∃ v : ℝ, a = (v : EReal)) (hb : ∃ v : ℝ, b = (v : EReal)) :
    ∃ v : ℝ, a * b = (v : EReal) := by
  obtain ⟨u, rfl⟩ := ha; obtain ⟨v, rfl⟩ := hb; exact ⟨u * v, (EReal.coe_mul u v).symm⟩

theorem real_sum {ι : Type*} (s : Finset ι) (f : ι → EReal) (hf : ∀ i, ∃ v : ℝ, f i = (v : EReal)) :
    ∃ v : ℝ, ∑ i ∈ s, f i = (v : EReal) := by
  choose g hg using hf
  exact ⟨∑ i ∈ s, g i, by rw [coe_sum]; exact Finset.sum_congr rfl fun i _ => hg i⟩

/-- Finite sums and products of reals are real: the first layer of real inputs is real. -/
theorem lin3_real (x : Arr 50000 128) (e : Arr 50000 96) (g : Arr 50000 64) (wx : Arr 128 256) (we : Arr 96 256)
    (wu : Arr 64 256) (b : Arr 1 256)
    (hx : ∀ i, ∃ v : ℝ, x i = (v : EReal)) (he : ∀ i, ∃ v : ℝ, e i = (v : EReal))
    (hg : ∀ i, ∃ v : ℝ, g i = (v : EReal)) (hwx : ∀ i, ∃ v : ℝ, wx i = (v : EReal))
    (hwe : ∀ i, ∃ v : ℝ, we i = (v : EReal)) (hwu : ∀ i, ∃ v : ℝ, wu i = (v : EReal))
    (hb : ∀ i, ∃ v : ℝ, b i = (v : EReal)) :
    ∀ i, ∃ v : ℝ, lin3 x e g wx we wu b i = (v : EReal) := fun i =>
  real_add (real_add (real_add (real_sum _ _ fun _ => real_mul (hx _) (hwx _))
    (real_sum _ _ fun _ => real_mul (he _) (hwe _))) (real_sum _ _ fun _ => real_mul (hg _) (hwu _))) (hb _)

/-! ## Mean and variance -/

/-- Over the reals, with the divisor the number of terms: the mean of squared deviations from the mean is the
    mean of squares minus the squared mean. -/
theorem var_real {ι : Type*} [Fintype ι] (a : ι → ℝ) (c : ℝ) (hc : (Fintype.card ι : ℝ) = c) (hc0 : c ≠ 0) :
    (∑ r, (a r - (∑ r, a r) * (1 / c)) * (a r - (∑ r, a r) * (1 / c))) * (1 / c)
      = (∑ r, a r * a r) * (1 / c) - ((∑ r, a r) * (1 / c)) * ((∑ r, a r) * (1 / c)) := by
  generalize hS : ∑ r, a r = S
  have h1 : ∑ r, (a r - S * (1 / c)) * (a r - S * (1 / c))
      = ∑ r, a r * a r - 2 * (S * (1 / c)) * S + c * ((S * (1 / c)) * (S * (1 / c))) := by
    have h2 : ∀ r, (a r - S * (1 / c)) * (a r - S * (1 / c))
        = a r * a r - 2 * (S * (1 / c)) * a r + (S * (1 / c)) * (S * (1 / c)) := fun r => by ring
    simp only [h2]
    rw [Finset.sum_add_distrib, Finset.sum_sub_distrib, ← Finset.mul_sum, hS, Finset.sum_const, Finset.card_univ,
      nsmul_eq_mul, hc]
  rw [h1]
  field_simp
  ring

/-- The mean row from the tiled column sums is the column mean. -/
theorem mean_eq (h : Arr 50000 256) (k : Fin 256) : meanOf (tileSums h) (ix2 0 k) = colMean h (ix1 k) := by
  show Ideal.div (∑ t : Fin 50, ∑ r : Fin 1000, h (ix2 (tileRow t r) k)) cnt
    = Ideal.div (∑ r : Fin 50000, h (ix2 r k)) cnt
  rw [sum_tiles (fun r => h (ix2 r k))]

/-- On real entries the variance row from the tiled sums of the entries and of their squares is the column
    variance. -/
theorem var_eq (h : Arr 50000 256) (hh : ∀ i, ∃ v : ℝ, h i = (v : EReal)) (k : Fin 256) :
    varOf (tileSums h) (tileSums (sq h)) (ix2 0 k) = colVar h (ix1 k) := by
  choose hv hhv using hh
  have hm : colMean h (ix1 k) = (((∑ r : Fin 50000, hv (ix2 r k)) * (1 / 50000) : ℝ) : EReal) := by
    show Ideal.div (∑ r : Fin 50000, h (ix2 r k)) cnt = _
    rw [cnt_eq, Ideal.div_coe (by norm_num), EReal.coe_mul, coe_sum]
    simp only [hhv]
  have hL : varOf (tileSums h) (tileSums (sq h)) (ix2 0 k)
      = Ideal.div (∑ r : Fin 50000, h (ix2 r k) * h (ix2 r k)) cnt - colMean h (ix1 k) * colMean h (ix1 k) := by
    show Ideal.div (∑ t : Fin 50, ∑ r : Fin 1000, h (ix2 (tileRow t r) k) * h (ix2 (tileRow t r) k)) cnt
        - meanOf (tileSums h) (ix2 0 k) * meanOf (tileSums h) (ix2 0 k) = _
    rw [mean_eq, sum_tiles (fun r => h (ix2 r k) * h (ix2 r k))]
  rw [hL]
  show _ = Ideal.div (∑ r : Fin 50000, (h (ix2 r k) - colMean h (ix1 k)) * (h (ix2 r k) - colMean h (ix1 k))) cnt
  rw [hm, cnt_eq, Ideal.div_coe (by norm_num), Ideal.div_coe (by norm_num)]
  simp only [hhv, ← EReal.coe_mul, ← EReal.coe_sub, ← coe_sum]
  rw [EReal.coe_eq_coe_iff]
  exact (var_real (fun r => hv (ix2 r k)) 50000 (by simp) (by norm_num)).symm

/-! ## The two arrangements agree -/

/-- Normalising the three-product first layer by its tiled statistics, then the second layer, is the reference:
    normalising the concatenated-row first layer by its column mean and variance, then the second layer. -/
theorem bridge (x : Arr 50000 128) (e : Arr 50000 96) (g : Arr 50000 64) (cat : Arr 50000 288) (w : Arr 288 256)
    (b1 gamma beta : Vec1 256) (w2 : Arr 256 128) (b2 : Vec1 128)
    (hcx : ∀ (r : Fin 50000) (k : Fin 128), cat (ix2 r ⟨k.val, by omega⟩) = x (ix2 r k))
    (hce : ∀ (r : Fin 50000) (k : Fin 96), cat (ix2 r ⟨128 + k.val, by omega⟩) = e (ix2 r k))
    (hcg : ∀ (r : Fin 50000) (k : Fin 64), cat (ix2 r ⟨224 + k.val, by omega⟩) = g (ix2 r k))
    (hx : ∀ i, ∃ v : ℝ, x i = (v : EReal)) (he : ∀ i, ∃ v : ℝ, e i = (v : EReal))
    (hg : ∀ i, ∃ v : ℝ, g i = (v : EReal)) (hw : ∀ i, ∃ v : ℝ, w i = (v : EReal))
    (hb1 : ∀ i, ∃ v : ℝ, b1 i = (v : EReal)) :
    bnOut
        (lin3 x e g (rows 0 128 (by omega) w) (rows 128 96 (by omega) w) (rows 224 64 (by omega) w) (rowOf b1))
        (meanOf (tileSums
          (lin3 x e g (rows 0 128 (by omega) w) (rows 128 96 (by omega) w) (rows 224 64 (by omega) w) (rowOf b1))))
        (varOf
          (tileSums
            (lin3 x e g (rows 0 128 (by omega) w) (rows 128 96 (by omega) w) (rows 224 64 (by omega) w) (rowOf b1)))
          (tileSums (sq
            (lin3 x e g (rows 0 128 (by omega) w) (rows 128 96 (by omega) w) (rows 224 64 (by omega) w) (rowOf b1)))))
        (rowOf gamma) (rowOf beta) w2 (rowOf b2)
      = refOut (linCat cat w b1) gamma beta w2 b2 := by
  have hreal := lin3_real x e g (rows 0 128 (by omega) w) (rows 128 96 (by omega) w) (rows 224 64 (by omega) w)
    (rowOf b1) hx he hg (fun _ => hw _) (fun _ => hw _) (fun _ => hw _) (fun _ => hb1 _)
  rw [lin3_eq_linCat x e g cat w b1 hcx hce hcg] at hreal ⊢
  funext i
  unfold bnOut refOut
  refine congrArg₂ (· + ·) (Finset.sum_congr rfl fun k _ => ?_) rfl
  rw [mean_eq, var_eq _ hreal]
  rfl

end Cert.Spec

end
-- ==== Proof.Glue.lean ====
/-
  The reference's concatenated feature matrix [x | e | g] (50000 × 288) read column block by column block: columns
  0–127 are the node features, 128–223 the aggregated edge features, 224–287 the gathered graph features — and the
  last two are, as terms, the very arrays the kernel's first region is handed.
-/
import proofs.«110835_j6279242186980_1_alg».proof.Proof.Gen.ReferenceIdeal.Read
import proofs.«110835_j6279242186980_1_alg».proof.Proof.Features
import Idealize.ShloMosaic.Lib.Pipeline.Value

noncomputable section

namespace Cert.Glue

open Idealize.ShloMosaic Idealize.ShloMosaic.ValueIdx
open Cert.ReferenceIdeal.Read

/-- Both programs aggregate the edge features by the same operations. -/
theorem ref_e (x1 : Cert.KernelIdeal.S2x800000.Idx → BitVec 32) (x2 : Cert.KernelIdeal.S800000x96.Idx → EReal) :
    val_main_v12 (F := Ideal) x1 x2 = Cert.KernelIdeal.Host.eAggr x1 x2 := rfl

/-- Both programs gather the graph features by the same operations. -/
theorem ref_g (x3 : Cert.KernelIdeal.S64x64.Idx → EReal) (x4 : Cert.KernelIdeal.S50000.Idx → BitVec 32) :
    val_main_v19 (F := Ideal) x3 x4 = Cert.KernelIdeal.Host.uGath x3 x4 := rfl

variable (x0 : Cert.Spec.Arr 50000 128) (x1 : Cert.KernelIdeal.S2x800000.Idx → BitVec 32) (x2 : Cert.Spec.Arr 800000 96)
  (x3 : Cert.Spec.Arr 64 64) (x4 : Cert.KernelIdeal.S50000.Idx → BitVec 32)

/-- The three pieces of the concatenation, in order. -/
abbrev pieces : List ((s : Shape) × (s.Idx → EReal)) :=
  [⟨Cert.ReferenceIdeal.S50000x128, x0⟩, ⟨Cert.ReferenceIdeal.S50000x96, val_main_v12 (F := Ideal) x1 x2⟩,
    ⟨Cert.ReferenceIdeal.S50000x64, val_main_v19 (F := Ideal) x3 x4⟩]

theorem cat_def : val_main_v20 (F := Ideal) x0 x1 x2 x3 x4
    = concatenate Cert.ReferenceIdeal.S50000x288 1 (pieces x0 x1 x2 x3 x4)
        Cert.ReferenceIdeal.Facts₀.concatenates_S50000x128_S50000x96_S50000x64_S50000x288_d1 := rfl

/-- Off the concatenation axis (axis 1) an index into a piece and the index into the whole share the row. -/
theorem off_axis {n : ℕ} (r : Fin 50000) (k : Fin n) (c : Fin 288) (b : Fin 2) (hb : b ≠ (1 : Fin 2)) :
    ((ix2 r k : (⟨2, ![50000, n]⟩ : Shape).Idx) b).val = ((ix2 r c : (⟨2, ![50000, 288]⟩ : Shape).Idx) b).val := by
  match b with
  | ⟨0, _⟩ => rfl
  | ⟨1, _⟩ => exact absurd rfl hb

/-- Columns 0–127 of the concatenation are the node features. -/
theorem cat_x (r : Fin 50000) (k : Fin 128) :
    val_main_v20 (F := Ideal) x0 x1 x2 x3 x4 (ix2 r ⟨k.val, by omega⟩) = x0 (ix2 r k) := by
  rw [cat_def]
  exact concatenate_apply_piece (t := Cert.ReferenceIdeal.S50000x288) (1 : Fin 2) (pieces x0 x1 x2 x3 x4) _
    (ix2 r ⟨k.val, by omega⟩) 0 (Nat.succ_pos 2) Cert.ReferenceIdeal.S50000x128 x0 rfl rfl 0 rfl (ix2 r k)
    (fun b hb => off_axis r k _ b hb) (Nat.zero_add _)

/-- Columns 128–223 are the aggregated edge features. -/
theorem cat_e (r : Fin 50000) (k : Fin 96) :
    val_main_v20 (F := Ideal) x0 x1 x2 x3 x4 (ix2 r ⟨128 + k.val, by omega⟩) = Cert.KernelIdeal.Host.eAggr x1 x2 (ix2 r k) := by
  rw [cat_def]
  exact concatenate_apply_piece (t := Cert.ReferenceIdeal.S50000x288) (1 : Fin 2) (pieces x0 x1 x2 x3 x4) _
    (ix2 r ⟨128 + k.val, by omega⟩) 1 (Nat.succ_lt_succ (Nat.succ_pos 1)) Cert.ReferenceIdeal.S50000x96 (val_main_v12 (F := Ideal) x1 x2) rfl rfl 128 rfl (ix2 r k)
    (fun b hb => off_axis r k _ b hb) rfl

/-- Columns 224–287 are the gathered graph features. -/
theorem cat_g (r : Fin 50000) (k : Fin 64) :
    val_main_v20 (F := Ideal) x0 x1 x2 x3 x4 (ix2 r ⟨224 + k.val, by omega⟩) = Cert.KernelIdeal.Host.uGath x3 x4 (ix2 r k) := by
  rw [cat_def]
  exact concatenate_apply_piece (t := Cert.ReferenceIdeal.S50000x288) (1 : Fin 2) (pieces x0 x1 x2 x3 x4) _
    (ix2 r ⟨224 + k.val, by omega⟩) 2 (Nat.lt_succ_self 2) Cert.ReferenceIdeal.S50000x64 (val_main_v19 (F := Ideal) x3 x4) rfl rfl 224 rfl (ix2 r k)
    (fun b hb => off_axis r k _ b hb) rfl

end Cert.Glue

end
-- ==== Proof.KernelValue.lean ====
/-
  The idealized kernel's result as one function of the launch contents. The second region's output is the
  normalised second layer of what the first region left (the first layer's pre-activations and their column sums and
  column sums of squares, turned into mean and variance rows by the host operations between the regions); the first
  region's outputs are the first layer of the arrays the host operations before it prepared. Under the precondition
  every entry involved is real, and then this is the reference's function: the algebra of Proof/Algebra.lean.
-/
import proofs.«110835_j6279242186980_1_alg».proof.Proof.RunNamed
import proofs.«110835_j6279242186980_1_alg».proof.Proof.Host
import proofs.«110835_j6279242186980_1_alg».proof.Proof.Features
import proofs.«110835_j6279242186980_1_alg».proof.Proof.Region0
import proofs.«110835_j6279242186980_1_alg».proof.Proof.Region1
import proofs.«110835_j6279242186980_1_alg».proof.Proof.Algebra
import proofs.«110835_j6279242186980_1_alg».proof.Proof.Glue

noncomputable section

namespace Cert.KernelIdeal.Whole

open Cert.KernelIdeal Cert.KernelIdeal.Gen
open Idealize.ShloMosaic Idealize.ShloMosaic.TcCoe Idealize.SL.Sem Idealize.ShloMosaic.ValueIdx
open Cert.Spec

/-- The common result: the reference's function of the eleven arguments. -/
def result (x0 : Arr 50000 128) (x1 : S2x800000.Idx → BitVec 32) (x2 : Arr 800000 96) (x3 : Arr 64 64)
    (x4 : S50000.Idx → BitVec 32) (x5 : Arr 288 256) (x6 x7 x8 : Vec1 256) (x9 : Arr 256 128) (x10 : Vec1 128) : Arr 50000 128 :=
  refOut (linCat (Cert.ReferenceIdeal.Read.val_main_v20 (F := Ideal) x0 x1 x2 x3 x4) x5 x6) x7 x8 x9 x10

theorem bnOut_congr {h h' : Arr 50000 256} {a b c d a' b' c' d' : Arr 1 256} {w w' : Arr 256 128} {e e' : Arr 1 128}
    (e1 : h = h') (e2 : a = a') (e3 : b = b') (e4 : c = c') (e5 : d = d') (e6 : w = w') (e7 : e = e') :
    bnOut h a b c d w e = bnOut h' a' b' c' d' w' e' := by subst_vars; rfl

theorem lin3_congr {x x' : Arr 50000 128} {e e' : Arr 50000 96} {g g' : Arr 50000 64} {wx wx' : Arr 128 256}
    {we we' : Arr 96 256} {wu wu' : Arr 64 256} {b b' : Arr 1 256}
    (e1 : x = x') (e2 : e = e') (e3 : g = g') (e4 : wx = wx') (e5 : we = we') (e6 : wu = wu') (e7 : b = b') :
    lin3 x e g wx we wu b = lin3 x' e' g' wx' we' wu' b' := by subst_vars; rfl

variable (m : (ℓ : Loc nD τ sig) → Buf (Elt Ideal) ℓ) (ρ : Dev nD → PrngReg)

/-- The first layer as the first region computes it, over the launch contents. -/
abbrev L (c : Dev nD) : Arr 50000 256 :=
  lin3 (m ((c.tc : Thread nD τ).loc main_arg0))
    (Host.eAggr (m ((c.tc : Thread nD τ).loc main_arg1)) (m ((c.tc : Thread nD τ).loc main_arg2)))
    (Host.uGath (m ((c.tc : Thread nD τ).loc main_arg3)) (m ((c.tc : Thread nD τ).loc main_arg4)))
    (rows 0 128 (by omega) (m ((c.tc : Thread nD τ).loc main_arg5)))
    (rows 128 96 (by omega) (m ((c.tc : Thread nD τ).loc main_arg5)))
    (rows 224 64 (by omega) (m ((c.tc : Thread nD τ).loc main_arg5)))
    (rowOf (m ((c.tc : Thread nD τ).loc main_arg6)))

/-- The first region's first-layer term at its entry contents is the one over the launch contents. -/
theorem L_entry (c : Dev nD) :
    lin3 (V1 m ρ c main_arg0) (V1 m ρ c main_v12) (V1 m ρ c main_v19) (V1 m ρ c main_v20) (V1 m ρ c main_v21)
      (V1 m ρ c main_v22) (V1 m ρ c main_v23) = L m c :=
  lin3_congr (Host.V1_arg0 m ρ c) (Host.V1_v12 m ρ c) (Host.V1_v19 m ρ c) (Host.V1_v20 m ρ c) (Host.V1_v21 m ρ c)
    (Host.V1_v22 m ρ c) (Host.V1_v23 m ρ c)

/-- The result buffer after the run, as the two regions and the host operations compose it. -/
theorem composed (c : Dev nD) :
    (W4 m ρ c (Proc.devRef .tc main_v38) : Arr 50000 128)
      = bnOut (L m c) (meanOf (tileSums (L m c))) (varOf (tileSums (L m c)) (tileSums (sq (L m c))))
          (rowOf (m ((c.tc : Thread nD τ).loc main_arg7))) (rowOf (m ((c.tc : Thread nD τ).loc main_arg8)))
          (m ((c.tc : Thread nD τ).loc main_arg9)) (rowOf (m ((c.tc : Thread nD τ).loc main_arg10))) := by
  refine ((W4_arr m ρ c 7).trans (Region1.final (V3 m ρ) c)).trans ?_
  have h7 : (dat0 (V1 m ρ) c).arrAt 7 cfg0.N = L m c := (Region0.final7 (V1 m ρ) c).trans (L_entry m ρ c)
  have h8 : (dat0 (V1 m ρ) c).arrAt 8 cfg0.N = tileSums (L m c) :=
    (Region0.final8 (V1 m ρ) c).trans (congrArg tileSums (L_entry m ρ c))
  have h9 : (dat0 (V1 m ρ) c).arrAt 9 cfg0.N = tileSums (sq (L m c)) :=
    (Region0.final9 (V1 m ρ) c).trans (congrArg (fun h => tileSums (sq h)) (L_entry m ρ c))
  exact bnOut_congr ((Host.V3_v24_0 m ρ c).trans h7)
    ((Host.V3_v33 m ρ c).trans (congrArg meanOf h8))
    ((Host.V3_v34 m ρ c).trans (congrArg₂ varOf h8 h9))
    (Host.V3_v35 m ρ c) (Host.V3_v36 m ρ c) (Host.V3_arg9 m ρ c) (Host.V3_v37 m ρ c)

/-- With real node features, edge features, graph features, first matrix and first bias, the result buffer after the
    run holds the reference's function of the launch contents. -/
theorem value (c : Dev nD)
    (h0 : ∀ i, ∃ v : ℝ, m ((c.tc : Thread nD τ).loc main_arg0) i = (v : EReal))
    (h2 : ∀ i, ∃ v : ℝ, m ((c.tc : Thread nD τ).loc main_arg2) i = (v : EReal))
    (h3 : ∀ i, ∃ v : ℝ, m ((c.tc : Thread nD τ).loc main_arg3) i = (v : EReal))
    (h5 : ∀ i, ∃ v : ℝ, m ((c.tc : Thread nD τ).loc main_arg5) i = (v : EReal))
    (h6 : ∀ i, ∃ v : ℝ, m ((c.tc : Thread nD τ).loc main_arg6) i = (v : EReal)) :
    (W4 m ρ c (Proc.devRef .tc main_v38) : Arr 50000 128)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (composed m ρ c).trans
    (bridge _ _ _ (Cert.ReferenceIdeal.Read.val_main_v20 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))) _ _ _ _ _ _
      (Cert.Glue.cat_x _ _ _ _ _) (Cert.Glue.cat_e _ _ _ _ _) (Cert.Glue.cat_g _ _ _ _ _)
      h0 (Host.eAggr_real _ _ h2) (Host.uGath_real _ _ h3) h5 h6)

end Cert.KernelIdeal.Whole

end
-- ==== Proof.RefRead.lean ====
/-
  The reference program read off its generated run. Its stages, one operation at a time, compose to the
  specification's functions of the concatenated feature matrix `cat` (left opaque: it is what the scatter-adds, the
  gather and the concatenation produce): the first layer is `linCat cat w b`; each column's mean over the 50000 rows is
  `colMean`; the mean of the squared deviations is `colVar`; and the result — normalise, affine map, max with 0,
  second layer — is `refOut`. Every step is a reading at an index: a broadcast row or column reads its operand at
  the one coordinate it keeps, a product is the sum over the contracted coordinate, a column sum is the zero word (the
  real 0) plus the sum over the rows. The divisor and the variance offset stay the printed words on both sides.
-/
import proofs.«110835_j6279242186980_1_alg».proof.Proof.Spec
import proofs.«110835_j6279242186980_1_alg».proof.Proof.Gen.ReferenceIdeal.Read

noncomputable section

namespace Cert.ReferenceIdeal.RefRead

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ### The printed index functions, as coordinates -/

theorem lidx21 (i : S50000x256.Idx) (k : Fin 288) : lidx_main_v21 i k = ix2 (i 0) k :=
  funext fun a => Fin.ext (by match a with | ⟨0, _⟩ => rfl | ⟨1, _⟩ => rfl)
theorem ridx21 (i : S50000x256.Idx) (k : Fin 288) : ridx_main_v21 i k = ix2 k (i 1) :=
  funext fun a => Fin.ext (by match a with | ⟨0, _⟩ => rfl | ⟨1, _⟩ => rfl)
/-- The bias row broadcast down the rows reads the bias at the column. -/
theorem bias6 (i : S50000x256.Idx) : idx_main_v22 (idx_main_v23 i) = ix1 (i 1) :=
  funext fun a => Fin.ext (by match a with | ⟨0, _⟩ => rfl)
theorem col25 (j : S256.Idx) (k : Fin 50000) : idx_main_v25 j k = ix2 k (j 0) :=
  funext fun a => Fin.ext (by match a with | ⟨0, _⟩ => rfl | ⟨1, _⟩ => rfl)
theorem col32 (j : S256.Idx) (k : Fin 50000) : idx_main_v32 j k = ix2 k (j 0) :=
  funext fun a => Fin.ext (by match a with | ⟨0, _⟩ => rfl | ⟨1, _⟩ => rfl)
/-- The mean row broadcast down the rows, read at row `k` of column `j`, is the mean of column `j`. -/
theorem mean32 (j : S256.Idx) (k : Fin 50000) : idx_main_v28 (idx_main_v29 (idx_main_v32 j k)) = j :=
  funext fun a => Fin.ext (by match a with | ⟨0, _⟩ => rfl)
theorem lidx51 (i : S50000x128.Idx) (k : Fin 256) : lidx_main_v51 i k = ix2 (i 0) k :=
  funext fun a => Fin.ext (by match a with | ⟨0, _⟩ => rfl | ⟨1, _⟩ => rfl)
theorem ridx51 (i : S50000x128.Idx) (k : Fin 256) : ridx_main_v51 i k = ix2 k (i 1) :=
  funext fun a => Fin.ext (by match a with | ⟨0, _⟩ => rfl | ⟨1, _⟩ => rfl)
/-- The four rows broadcast down the rows (mean, inverse deviation, scale, shift), read at column `k`. -/
theorem mean51 (i : S50000x128.Idx) (k : Fin 256) : idx_main_v35 (idx_main_v36 (lidx_main_v51 i k)) = ix1 k :=
  funext fun a => Fin.ext (by match a with | ⟨0, _⟩ => rfl)
theorem var51 (i : S50000x128.Idx) (k : Fin 256) : idx_main_v41 (idx_main_v42 (lidx_main_v51 i k)) = ix1 k :=
  funext fun a => Fin.ext (by match a with | ⟨0, _⟩ => rfl)
theorem scale51 (i : S50000x128.Idx) (k : Fin 256) : idx_main_v44 (idx_main_v45 (lidx_main_v51 i k)) = ix1 k :=
  funext fun a => Fin.ext (by match a with | ⟨0, _⟩ => rfl)
theorem shift51 (i : S50000x128.Idx) (k : Fin 256) : idx_main_v47 (idx_main_v48 (lidx_main_v51 i k)) = ix1 k :=
  funext fun a => Fin.ext (by match a with | ⟨0, _⟩ => rfl)
theorem bias10 (i : S50000x128.Idx) : idx_main_v52 (idx_main_v53 i) = ix1 (i 1) :=
  funext fun a => Fin.ext (by match a with | ⟨0, _⟩ => rfl)

variable (x0 : (⟨S50000x128, .f32⟩ : BufTy).Contents (Elt Ideal)) (x1 : (⟨S2x800000, .i32⟩ : BufTy).Contents (Elt Ideal))
  (x2 : (⟨S800000x96, .f32⟩ : BufTy).Contents (Elt Ideal)) (x3 : (⟨S64x64, .f32⟩ : BufTy).Contents (Elt Ideal))
  (x4 : (⟨S50000, .i32⟩ : BufTy).Contents (Elt Ideal)) (x5 : (⟨S288x256, .f32⟩ : BufTy).Contents (Elt Ideal))
  (x6 x7 x8 : (⟨S256, .f32⟩ : BufTy).Contents (Elt Ideal)) (x9 : (⟨S256x128, .f32⟩ : BufTy).Contents (Elt Ideal))
  (x10 : (⟨S128, .f32⟩ : BufTy).Contents (Elt Ideal))

/-- The first layer of the specification, of the reference's concatenated feature matrix. -/
abbrev hid : Cert.Spec.Arr 50000 256 := Cert.Spec.linCat (val_main_v20 (F := Ideal) x0 x1 x2 x3 x4) x5 x6

/-! ### The first layer -/

/-- The product with the whole 288 × 256 matrix plus the broadcast bias is `linCat`. -/
theorem lin_eq : val_main_v24 (F := Ideal) x0 x1 x2 x3 x4 x5 x6 = hid x0 x1 x2 x3 x4 x5 x6 := by
  funext i
  rw [val_main_v24_apply, val_main_v21_apply, val_main_v23_apply, val_main_v22_apply, bias6]
  show (∑ k : Fin 288, _) + _ = (∑ k : Fin 288, _) + _
  refine congrArg₂ (· + ·) (Finset.sum_congr rfl fun k _ => ?_) rfl
  rw [lidx21, ridx21]
  rfl

/-! ### Column means and variances -/

/-- The column sums from the zero word, divided by the printed row count, are `colMean`. -/
theorem mean_eq : val_main_v27 (F := Ideal) x0 x1 x2 x3 x4 x5 x6 = Cert.Spec.colMean (hid x0 x1 x2 x3 x4 x5 x6) := by
  funext j
  rw [val_main_v27_apply, val_main_v25_apply, val_main_v26_apply, val_main_cst_5_apply, val_main_cst_4_apply, lin_eq]
  simp only [Ideal.hostDivf_def, Ideal.ofBits_def, Ideal.ofBits_zero_f32, zero_add, col25]
  rfl

/-- An entry's deviation from its column's mean, at row `k` of column `j`. -/
theorem dev_at (j : S256.Idx) (k : Fin 50000) :
    val_main_v30 (F := Ideal) x0 x1 x2 x3 x4 x5 x6 (idx_main_v32 j k)
      = hid x0 x1 x2 x3 x4 x5 x6 (ix2 k (j 0)) - Cert.Spec.colMean (hid x0 x1 x2 x3 x4 x5 x6) j := by
  rw [val_main_v30_apply, val_main_v29_apply, val_main_v28_apply, lin_eq, mean_eq, mean32, col32]
  rfl

/-- The column sums of the squared deviations, divided by the printed row count, are `colVar`. -/
theorem var_eq : val_main_v34 (F := Ideal) x0 x1 x2 x3 x4 x5 x6 = Cert.Spec.colVar (hid x0 x1 x2 x3 x4 x5 x6) := by
  funext j
  rw [val_main_v34_apply, val_main_v32_apply, val_main_v33_apply, val_main_cst_7_apply, val_main_cst_6_apply]
  simp only [Ideal.hostDivf_def, Ideal.ofBits_def, Ideal.ofBits_zero_f32, zero_add, val_main_v31_apply, dev_at,
    Ideal.mulf_def]
  rfl

/-! ### The result -/

/-- The normalised, scaled, shifted and clipped entry the second product reads: row of the result, column `k`. -/
theorem act_at (i : S50000x128.Idx) (k : Fin 256) :
    val_main_v50 (F := Ideal) x0 x1 x2 x3 x4 x5 x6 x7 x8 (lidx_main_v51 i k)
      = max ((((hid x0 x1 x2 x3 x4 x5 x6 (ix2 (i 0) k) - Cert.Spec.colMean (hid x0 x1 x2 x3 x4 x5 x6) (ix1 k))
            * Ideal.rsqrt (Cert.Spec.colVar (hid x0 x1 x2 x3 x4 x5 x6) (ix1 k) + Cert.Spec.eps)) * x7 (ix1 k)) + x8 (ix1 k)) 0 := by
  rw [val_main_v50_apply, val_main_call0_v0_apply, val_main_call0_cst_apply, val_main_v49_apply, val_main_v48_apply,
    val_main_v47_apply, val_main_v46_apply, val_main_v45_apply, val_main_v44_apply, val_main_v43_apply, val_main_v42_apply,
    val_main_v41_apply, val_main_v40_apply, val_main_v39_apply, val_main_v38_apply, val_main_cst_8_apply, val_main_v37_apply,
    val_main_v36_apply, val_main_v35_apply, lin_eq, mean_eq, var_eq, mean51, var51, scale51, shift51, lidx51]
  simp only [Ideal.maximumf_def, Ideal.addf_def, Ideal.mulf_def, Ideal.subf_def, Ideal.hostUnary_rsqrt_def, Ideal.ofBits_def,
    Ideal.ofBits_zero_f32]
  rfl

/-- The reference's result is the specification's `refOut` of the first layer on the concatenated feature matrix. -/
theorem result_eq :
    val_main_v54 (F := Ideal) x0 x1 x2 x3 x4 x5 x6 x7 x8 x9 x10
      = Cert.Spec.refOut (Cert.Spec.linCat (val_main_v20 (F := Ideal) x0 x1 x2 x3 x4) x5 x6) x7 x8 x9 x10 := by
  funext i
  rw [val_main_v54_apply, val_main_v51_apply, val_main_v53_apply, val_main_v52_apply, bias10]
  show (∑ k : Fin 256, _) + _ = (∑ k : Fin 256, _) + _
  refine congrArg₂ (· + ·) (Finset.sum_congr rfl fun k _ => ?_) rfl
  rw [act_at, ridx51]
  rfl

end Cert.ReferenceIdeal.RefRead

end
-- ==== Proof.lean ====
/-
  The certificate of a node model: two-layer perceptron with batch normalisation over 50000 nodes, on the rows
  [node features | mean of incoming edge features | the node's graph features].

  The kernel forms the first layer tile by tile (50 tiles of 1000 rows) as three partial products over the row blocks
  of the first matrix, writes it out and accumulates each column's sum and sum of squares across the tiles; the host
  turns these into a mean row and, as mean of squares minus squared mean, a variance row; a second kernel normalises
  each tile, applies scale and shift, takes the maximum with 0 and multiplies by the second matrix. The reference
  multiplies the concatenated rows by the whole first matrix and takes the variance as the mean of squared deviations.

  On the extended reals the two agree because (1) the aggregated edge features and the gathered graph features are
  the same terms in both programs; (2) a sum over 288 features is the sum of its three blocks' sums and a sum over
  50000 rows the sum of its 50 tiles' sums (addition is commutative and associative on the extended reals); (3) under
  the precondition every input entry is real, hence so is every first-layer entry, and for real columns of length
  n the mean of squared deviations is the mean of squares minus the squared mean — the divisor both programs print
  denotes exactly n = 50000. Everything after mean and variance is one and the same expression.

  The three frames are the generated ones (the reference's is its generated run with the result dropped); the
  idealization rewrote nothing, so there is nothing to preserve.
-/
import proofs.«110835_j6279242186980_1_alg».proof.Defs
import proofs.«110835_j6279242186980_1_alg».proof.Proof.Gen.Kernel
import proofs.«110835_j6279242186980_1_alg».proof.Proof.Gen.Kernel.Skeleton
import proofs.«110835_j6279242186980_1_alg».proof.Proof.Gen.Kernel.Launch
import proofs.«110835_j6279242186980_1_alg».proof.Proof.Gen.Kernel.Points
import proofs.«110835_j6279242186980_1_alg».proof.Proof.Gen.Kernel.Frame
import proofs.«110835_j6279242186980_1_alg».proof.Proof.Gen.KernelIdeal
import proofs.«110835_j6279242186980_1_alg».proof.Proof.Gen.KernelIdeal.Skeleton
import proofs.«110835_j6279242186980_1_alg».proof.Proof.Gen.KernelIdeal.Launch
import proofs.«110835_j6279242186980_1_alg».proof.Proof.Gen.KernelIdeal.Points
import proofs.«110835_j6279242186980_1_alg».proof.Proof.Gen.KernelIdeal.Frame
import proofs.«110835_j6279242186980_1_alg».proof.Proof.Gen.ReferenceIdeal
import proofs.«110835_j6279242186980_1_alg».proof.Proof.Gen.ReferenceIdeal.Run
import proofs.«110835_j6279242186980_1_alg».proof.Proof.Gen.ReferenceIdeal.Read
import proofs.«110835_j6279242186980_1_alg».proof.Proof.Gen.Pre_finite_inputs
import proofs.«110835_j6279242186980_1_alg».proof.Proof.KernelValue
import proofs.«110835_j6279242186980_1_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition both idealized programs end with the
    result buffer at one function of the arguments: the kernel by its two regions' values and the algebra, the
    reference by its generated run read one operation at a time. -/
theorem algebraic : Cert.algebraic_KernelIdeal_ReferenceIdeal := by
  intro m ρ m' ρ' hpre hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.Named.run_named (F := Ideal) m ρ)
    obtain ⟨h0, h2, h3, h5, h6⟩ := Cert.Finite.reals_of_pre _ _ _ _ _ _ _ _ _ _ _ (hpre c)
    exact Cert.KernelIdeal.Whole.value m ρ c h0 h2 h3 h5 h6
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v54_eq, Cert.ReferenceIdeal.RefRead.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
